-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64x512x512 : Shape := ⟨3, ![64, 512, 512]⟩
abbrev S64x512 : Shape := ⟨2, ![64, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S131072x512 .f32) (main_arg1 : FVec F S64x512x512 .f32) (main_arg2 : FVec F S64x512 .f32) (main_arg3 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S131072x512 : Shape := ⟨2, ![131072, 512]⟩
abbrev S64x512x512 : Shape := ⟨3, ![64, 512, 512]⟩
abbrev S64x512 : Shape := ⟨2, ![64, 512]⟩
abbrev S131072 : Shape := ⟨1, ![131072]⟩
abbrev S_ : Shape := ⟨0, ![]⟩
abbrev S131072x1 : Shape := ⟨2, ![131072, 1]⟩
abbrev S64 : Shape := ⟨1, ![64]⟩
abbrev S196609x512 : Shape := ⟨2, ![196609, 512]⟩
abbrev S196608x512 : Shape := ⟨2, ![196608, 512]⟩
abbrev S64x3072x512 : Shape := ⟨3, ![64, 3072, 512]⟩
abbrev S64x1x512 : Shape := ⟨3, ![64, 1, 512]⟩
abbrev S1x1024x512 : Shape := ⟨3, ![1, 1024, 512]⟩
abbrev S1x512x512 : Shape := ⟨3, ![1, 512, 512]⟩
abbrev S1x1x512 : Shape := ⟨3, ![1, 1, 512]⟩
abbrev S1024x512 : Shape := ⟨2, ![1024, 512]⟩
abbrev S512x512 : Shape := ⟨2, ![512, 512]⟩
abbrev S512 : Shape := ⟨1, ![512]⟩
abbrev S1x512 : Shape := ⟨2, ![1, 512]⟩

abbrev nBuf : Space → Nat
  | .hbm => 96
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S64x512x512, .f32⟩
  | .hbm, ⟨2, _⟩ => ⟨S64x512, .f32⟩
  | .hbm, ⟨3, _⟩ => ⟨S131072, .i32⟩
  | .hbm, ⟨4, _⟩ => ⟨S131072, .i32⟩
  | .hbm, ⟨5, _⟩ => ⟨S131072, .i32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072x1, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S_, .i32⟩
  | .hbm, ⟨19, _⟩ => ⟨S64, .i32⟩
  | .hbm, ⟨20, _⟩ => ⟨S131072x1, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S131072, .i32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S_, .i32⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S_, .f32⟩
  | .hbm, ⟨49, _⟩ => ⟨S196609x512, .f32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S131072x512, .f32⟩
  | .hbm, ⟨59, _⟩ => ⟨S_, .i32⟩
  | .hbm, ⟨60, _⟩ => ⟨S131072, .i32⟩
  | .hbm, ⟨61, _⟩ => ⟨S131072, .i1⟩
  | .hbm, ⟨62, _⟩ => ⟨S_, .i32⟩
  | .hbm, ⟨63, _⟩ => ⟨S131072, .i32⟩
  | .hbm, ⟨64, _⟩ => ⟨S131072, .i32⟩
  | .hbm, ⟨65, _⟩ => ⟨S131072, .i32⟩
  | .hbm, ⟨66, _⟩ => ⟨S131072x1, .i32⟩
  | .hbm, ⟨67, _⟩ => ⟨S196609x512, .f32⟩
  | .hbm, ⟨68, _⟩ => ⟨S196608x512, .f32⟩
  | .hbm, ⟨69, _⟩ => ⟨S64x3072x512, .f32⟩
  | .hbm, ⟨70, _⟩ => ⟨S64x1x512, .f32⟩
  | .hbm, ⟨71, _⟩ => ⟨S64x3072x512, .f32⟩
  | .hbm, ⟨72, _⟩ => ⟨S196608x512, .f32⟩
  | .hbm, ⟨73, _⟩ => ⟨S_, .f32⟩
  | .hbm, ⟨74, _⟩ => ⟨S1x512, .f32⟩
  | .hbm, ⟨75, _⟩ => ⟨S196609x512, .f32⟩
  | .hbm, ⟨76, _⟩ => ⟨S_, .i32⟩
  | .hbm, ⟨77, _⟩ => ⟨S131072, .i32⟩
  | .hbm, ⟨78, _⟩ => ⟨S131072, .i1⟩
  | .hbm, ⟨79, _⟩ => ⟨S_, .i32⟩
  | .hbm, ⟨80, _⟩ => ⟨S131072, .i32⟩
  | .hbm, ⟨81, _⟩ => ⟨S131072, .i32⟩
  | .hbm, ⟨82, _⟩ => ⟨S131072, .i32⟩
  | .hbm, ⟨83, _⟩ => ⟨S131072x1, .i32⟩
  | .hbm, ⟨84, _⟩ => ⟨S131072x512, .f32⟩
  | .hbm, ⟨85, _⟩ => ⟨S_, .f32⟩
  | .hbm, ⟨86, _⟩ => ⟨S131072x512, .f32⟩
  | .hbm, ⟨87, _⟩ => ⟨S_, .i32⟩
  | .hbm, ⟨88, _⟩ => ⟨S131072, .i32⟩
  | .hbm, ⟨89, _⟩ => ⟨S131072, .i1⟩
  | .hbm, ⟨90, _⟩ => ⟨S_, .i32⟩
  | .hbm, ⟨91, _⟩ => ⟨S131072, .i32⟩
  | .hbm, ⟨92, _⟩ => ⟨S131072, .i32⟩
  | .hbm, ⟨93, _⟩ => ⟨S131072, .i32⟩
  | .hbm, ⟨94, _⟩ => ⟨S131072x1, .i32⟩
  | .hbm, ⟨95, _⟩ => ⟨S131072x512, .f32⟩
  | .local _ .vmem, ⟨0, _⟩ => ⟨S1x1024x512, .f32⟩
  | .local _ .vmem, ⟨1, _⟩ => ⟨S1x1024x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x512, .f32⟩
  | .local _ .vmem, ⟨7, _⟩ => ⟨S1x1024x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_call0_c : Ref sig .tc := ⟨.hbm, 22, rfl⟩
abbrev main_call1_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_c_13 : Ref sig .tc := ⟨.hbm, 76, rfl⟩
abbrev main_v51 : Ref sig .tc := ⟨.hbm, 77, rfl⟩
abbrev main_v52 : Ref sig .tc := ⟨.hbm, 78, rfl⟩
abbrev main_c_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_15 : Ref sig .tc := ⟨.hbm, 85, rfl⟩
abbrev main_v58 : Ref sig .tc := ⟨.hbm, 86, rfl⟩
abbrev main_c_16 : Ref sig .tc := ⟨.hbm, 87, rfl⟩
abbrev main_v59 : Ref sig .tc := ⟨.hbm, 88, rfl⟩
abbrev main_v60 : Ref sig .tc := ⟨.hbm, 89, rfl⟩
abbrev main_c_17 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S196609x512 : S_.BroadcastsInDim S196609x512 (![] : Fin 0 → Fin S196609x512.rank)
  slices_S196609x512_S196608x512_0_0 : S196609x512.Slices ![0, 0] S196608x512
  shapeCasts_S196608x512_S64x3072x512 : S196608x512.ShapeCasts S64x3072x512
  shapeCasts_S64x512_S64x1x512 : S64x512.ShapeCasts S64x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S1024x512 : S1x512.Broadcasts S1024x512
  shapeCasts_S1024x512_S1x1024x512 : S1024x512.ShapeCasts S1x1024x512
  shapeCasts_S64x3072x512_S196608x512 : S64x3072x512.ShapeCasts S196608x512
  bcast_S_S1x512 : S_.BroadcastsInDim S1x512 (![] : Fin 0 → Fin S1x512.rank)
  concatenates_S196608x512_S1x512_S196609x512_d0 : Shape.Concatenates [S196608x512, S1x512] S196609x512 0
  bcast_S_S131072x512 : S_.BroadcastsInDim S131072x512 (![] : Fin 0 → Fin S131072x512.rank)
  gather_S131072_S131072x1_S131072_n_0_n_n_0_1_1_wf : GatherDims.WF S131072 S131072x1 S131072 [] [0] [] [0] [] 1 ![1]
  scatter_S64_S131072x1_S131072_n_0_0_1_wf : ScatterDims.WF S64 S131072x1 S131072 [] [0] [0] 1
  gather_S64_S131072x1_S131072_n_0_n_n_0_1_1_wf : GatherDims.WF S64 S131072x1 S131072 [] [0] [] [0] [] 1 ![1]
  gather_S131072x512_S131072x1_S131072x512_1_0_n_n_0_1_1512_wf : GatherDims.WF S131072x512 S131072x1 S131072x512 [1] [0] [] [0] [] 1 ![1, 512]
  scatter_S196609x512_S131072x1_S131072x512_1_0_0_1_wf : ScatterDims.WF S196609x512 S131072x1 S131072x512 [1] [0] [0] 1
  dot_S1024x512_S512x512_S1024x512_1_1_0_0_n_n_wf : DotDims.WF S1024x512 S512x512 S1024x512 [1] [1] [0] [0] [] []
  gather_S196609x512_S131072x1_S131072x512_1_0_n_n_0_1_1512_wf : GatherDims.WF S196609x512 S131072x1 S131072x512 [1] [0] [] [0] [] 1 ![1, 512]
  scatter_S131072x512_S131072x1_S131072x512_1_0_0_1_wf : ScatterDims.WF S131072x512 S131072x1 S131072x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S64x3072x512.size a
  hwx0_0 : ∀ i : grid0.Coords, EltTy.bits .f32 = 32 ∨ (Rect.block (s := S64x3072x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S64x3072x512.size a
  hwx0_3 : ∀ i : grid0.Coords, EltTy.bits .f32 = 32 ∨ (Rect.block (s := S64x3072x512) S1x1024x512.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def scatter_S196609x512_S131072x1_S131072x512_1_0_0_1 : ScatterDims S196609x512 S131072x1 S131072x512 where
  updateWindowDims := [1]
  insertedWindowDims := [0]
  scatterDimsToOperandDims := [0]
  indexVectorDim := 1
  wf := scatter_S196609x512_S131072x1_S131072x512_1_0_0_1_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def gather_S196609x512_S131072x1_S131072x512_1_0_n_n_0_1_1512 : GatherDims S196609x512 S131072x1 S131072x512 where
  offsetDims := [1]
  collapsedSliceDims := [0]
  operandBatchingDims := []
  startIndicesBatchingDims := []
  startIndexMap := [0]
  indexVectorDim := 1
  sliceSizes := ![1, 512]
  wf := gather_S196609x512_S131072x1_S131072x512_1_0_n_n_0_1_1512_wf
def scatter_S131072x512_S131072x1_S131072x512_1_0_0_1 : ScatterDims S131072x512 S131072x1 S131072x512 where
  updateWindowDims := [1]
  insertedWindowDims := [0]
  scatterDimsToOperandDims := [0]
  indexVectorDim := 1
  wf := scatter_S131072x512_S131072x1_S131072x512_1_0_0_1_wf

abbrev win0_0 : Pipeline.Window sig grid0 :=
  Pipeline.Window.ofSpec (Memref.whole main_v45) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S64x512x512 : Shape := ⟨3, ![64, 512, 512]⟩
abbrev S64x512 : Shape := ⟨2, ![64, 512]⟩
abbrev S131072 : Shape := ⟨1, ![131072]⟩
abbrev S_ : Shape := ⟨0, ![]⟩
abbrev S131072x1 : Shape := ⟨2, ![131072, 1]⟩
abbrev S64 : Shape := ⟨1, ![64]⟩
abbrev S196609x512 : Shape := ⟨2, ![196609, 512]⟩
abbrev S196608x512 : Shape := ⟨2, ![196608, 512]⟩
abbrev S64x3072x512 : Shape := ⟨3, ![64, 3072, 512]⟩
abbrev S64x1x512 : Shape := ⟨3, ![64, 1, 512]⟩
abbrev S1x512 : Shape := ⟨2, ![1, 512]⟩

abbrev nBuf : Space → Nat
  | .hbm => 98
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64x512x512, .f32⟩
  | .hbm, ⟨2, _⟩ => ⟨S64x512, .f32⟩
  | .hbm, ⟨3, _⟩ => ⟨S131072, .i32⟩
  | .hbm, ⟨4, _⟩ => ⟨S131072, .i32⟩
  | .hbm, ⟨5, _⟩ => ⟨S131072, .i32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072x1, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S_, .i32⟩
  | .hbm, ⟨19, _⟩ => ⟨S64, .i32⟩
  | .hbm, ⟨20, _⟩ => ⟨S131072x1, .i32⟩
  | .hbm, ⟨21, _⟩ => ⟨S64, .i32⟩
  | .hbm, ⟨22, _⟩ => ⟨S_, .i32⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S131072, .i32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S_, .i32⟩
  | .hbm, ⟨45, _⟩ => ⟨S_, .i32⟩
  | .hbm, ⟨46, _⟩ => ⟨S131072, .i32⟩
  | .hbm, ⟨47, _⟩ => ⟨S131072, .i32⟩
  | .hbm, ⟨48, _⟩ => ⟨S_, .f32⟩
  | .hbm, ⟨49, _⟩ => ⟨S196609x512, .f32⟩
  | .hbm, ⟨50, _⟩ => ⟨S_, .i32⟩
  | .hbm, ⟨51, _⟩ => ⟨S131072, .i32⟩
  | .hbm, ⟨52, _⟩ => ⟨S131072, .i1⟩
  | .hbm, ⟨53, _⟩ => ⟨S_, .i32⟩
  | .hbm, ⟨54, _⟩ => ⟨S131072, .i32⟩
  | .hbm, ⟨55, _⟩ => ⟨S131072, .i32⟩
  | .hbm, ⟨56, _⟩ => ⟨S131072, .i32⟩
  | .hbm, ⟨57, _⟩ => ⟨S131072x1, .i32⟩
  | .hbm, ⟨58, _⟩ => ⟨S131072x512, .f32⟩
  | .hbm, ⟨59, _⟩ => ⟨S_, .i32⟩
  | .hbm, ⟨60, _⟩ => ⟨S131072, .i32⟩
  | .hbm, ⟨61, _⟩ => ⟨S131072, .i1⟩
  | .hbm, ⟨62, _⟩ => ⟨S_, .i32⟩
  | .hbm, ⟨63, _⟩ => ⟨S131072, .i32⟩
  | .hbm, ⟨64, _⟩ => ⟨S131072, .i32⟩
  | .hbm, ⟨65, _⟩ => ⟨S131072, .i32⟩
  | .hbm, ⟨66, _⟩ => ⟨S131072x1, .i32⟩
  | .hbm, ⟨67, _⟩ => ⟨S196609x512, .f32⟩
  | .hbm, ⟨68, _⟩ => ⟨S196608x512, .f32⟩
  | .hbm, ⟨69, _⟩ => ⟨S64x3072x512, .f32⟩
  | .hbm, ⟨70, _⟩ => ⟨S64x3072x512, .f32⟩
  | .hbm, ⟨71, _⟩ => ⟨S64x1x512, .f32⟩
  | .hbm, ⟨72, _⟩ => ⟨S64x3072x512, .f32⟩
  | .hbm, ⟨73, _⟩ => ⟨S64x3072x512, .f32⟩
  | .hbm, ⟨74, _⟩ => ⟨S196608x512, .f32⟩
  | .hbm, ⟨75, _⟩ => ⟨S_, .f32⟩
  | .hbm, ⟨76, _⟩ => ⟨S1x512, .f32⟩
  | .hbm, ⟨77, _⟩ => ⟨S196609x512, .f32⟩
  | .hbm, ⟨78, _⟩ => ⟨S_, .i32⟩
  | .hbm, ⟨79, _⟩ => ⟨S131072, .i32⟩
  | .hbm, ⟨80, _⟩ => ⟨S131072, .i1⟩
  | .hbm, ⟨81, _⟩ => ⟨S_, .i32⟩
  | .hbm, ⟨82, _⟩ => ⟨S131072, .i32⟩
  | .hbm, ⟨83, _⟩ => ⟨S131072, .i32⟩
  | .hbm, ⟨84, _⟩ => ⟨S131072, .i32⟩
  | .hbm, ⟨85, _⟩ => ⟨S131072x1, .i32⟩
  | .hbm, ⟨86, _⟩ => ⟨S131072x512, .f32⟩
  | .hbm, ⟨87, _⟩ => ⟨S_, .f32⟩
  | .hbm, ⟨88, _⟩ => ⟨S131072x512, .f32⟩
  | .hbm, ⟨89, _⟩ => ⟨S_, .i32⟩
  | .hbm, ⟨90, _⟩ => ⟨S131072, .i32⟩
  | .hbm, ⟨91, _⟩ => ⟨S131072, .i1⟩
  | .hbm, ⟨92, _⟩ => ⟨S_, .i32⟩
  | .hbm, ⟨93, _⟩ => ⟨S131072, .i32⟩
  | .hbm, ⟨94, _⟩ => ⟨S131072, .i32⟩
  | .hbm, ⟨95, _⟩ => ⟨S131072, .i32⟩
  | .hbm, ⟨96, _⟩ => ⟨S131072x1, .i32⟩
  | .hbm, ⟨97, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_call0_c : Ref sig .tc := ⟨.hbm, 22, rfl⟩
abbrev main_call1_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_call2_v0 : Ref sig .tc := ⟨.hbm, 45, rfl⟩
abbrev main_call2_v1 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_15 : Ref sig .tc := ⟨.hbm, 87, rfl⟩
abbrev main_v60 : Ref sig .tc := ⟨.hbm, 88, rfl⟩
abbrev main_c_16 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S196609x512 : S_.BroadcastsInDim S196609x512 (![] : Fin 0 → Fin S196609x512.rank)
  slices_S196609x512_S196608x512_0_0 : S196609x512.Slices ![0, 0] S196608x512
  shapeCasts_S196608x512_S64x3072x512 : S196608x512.ShapeCasts S64x3072x512
  bcast_S64x512_S64x1x512_0_2 : S64x512.BroadcastsInDim S64x1x512 (![0, 2] : Fin 2 → Fin S64x1x512.rank)
  bcast_S64x1x512_S64x3072x512_0_1_2 : S64x1x512.BroadcastsInDim S64x3072x512 (![0, 1, 2] : Fin 3 → Fin S64x3072x512.rank)
  shapeCasts_S64x3072x512_S196608x512 : S64x3072x512.ShapeCasts S196608x512
  bcast_S_S1x512 : S_.BroadcastsInDim S1x512 (![] : Fin 0 → Fin S1x512.rank)
  concatenates_S196608x512_S1x512_S196609x512_d0 : Shape.Concatenates [S196608x512, S1x512] S196609x512 0
  bcast_S_S131072x512 : S_.BroadcastsInDim S131072x512 (![] : Fin 0 → Fin S131072x512.rank)
  gather_S131072_S131072x1_S131072_n_0_n_n_0_1_1_wf : GatherDims.WF S131072 S131072x1 S131072 [] [0] [] [0] [] 1 ![1]
  scatter_S64_S131072x1_S131072_n_0_0_1_wf : ScatterDims.WF S64 S131072x1 S131072 [] [0] [0] 1
  gather_S64_S131072x1_S131072_n_0_n_n_0_1_1_wf : GatherDims.WF S64 S131072x1 S131072 [] [0] [] [0] [] 1 ![1]
  gather_S131072x512_S131072x1_S131072x512_1_0_n_n_0_1_1512_wf : GatherDims.WF S131072x512 S131072x1 S131072x512 [1] [0] [] [0] [] 1 ![1, 512]
  scatter_S196609x512_S131072x1_S131072x512_1_0_0_1_wf : ScatterDims.WF S196609x512 S131072x1 S131072x512 [1] [0] [0] 1
  dot_S64x3072x512_S64x512x512_S64x3072x512_2_2_1_1_0_0_wf : DotDims.WF S64x3072x512 S64x512x512 S64x3072x512 [2] [2] [1] [1] [0] [0]
  gather_S196609x512_S131072x1_S131072x512_1_0_n_n_0_1_1512_wf : GatherDims.WF S196609x512 S131072x1 S131072x512 [1] [0] [] [0] [] 1 ![1, 512]
  scatter_S131072x512_S131072x1_S131072x512_1_0_0_1_wf : ScatterDims.WF S131072x512 S131072x1 S131072x512 [1] [0] [0] 1

variable [Facts₀]

def comparator_i32_i32_d0 : BitVec 32 × BitVec 32 → BitVec 32 × BitVec 32 → BitVec 1 :=
  fun l r =>
    let v2 := IntOp.cmpi .slt l.1 r.1
    v2
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def gather_S64_S131072x1_S131072_n_0_n_n_0_1_1 : GatherDims S64 S131072x1 S131072 where
  offsetDims := []
  collapsedSliceDims := [0]
  operandBatchingDims := []
  startIndicesBatchingDims := []
  startIndexMap := [0]
  indexVectorDim := 1
  sliceSizes := ![1]
  wf := gather_S64_S131072x1_S131072_n_0_n_n_0_1_1_wf
def gather_S131072x512_S131072x1_S131072x512_1_0_n_n_0_1_1512 : GatherDims S131072x512 S131072x1 S131072x512 where
  offsetDims := [1]
  collapsedSliceDims := [0]
  operandBatchingDims := []
  startIndicesBatchingDims := []
  startIndexMap := [0]
  indexVectorDim := 1
  sliceSizes := ![1, 512]
  wf := gather_S131072x512_S131072x1_S131072x512_1_0_n_n_0_1_1512_wf
def scatter_S196609x512_S131072x1_S131072x512_1_0_0_1 : ScatterDims S196609x512 S131072x1 S131072x512 where
  updateWindowDims := [1]
  insertedWindowDims := [0]
  scatterDimsToOperandDims := [0]
  indexVectorDim := 1
  wf := scatter_S196609x512_S131072x1_S131072x512_1_0_0_1_wf
def dot_S64x3072x512_S64x512x512_S64x3072x512_2_2_1_1_0_0 : DotDims S64x3072x512 S64x512x512 S64x3072x512 where
  lhsContracting := [2]
  rhsContracting := [2]
  lhsNonContracting := [1]
  rhsNonContracting := [1]
  lhsBatch := [0]
  rhsBatch := [0]
  wf := dot_S64x3072x512_S64x512x512_S64x3072x512_2_2_1_1_0_0_wf
def gather_S196609x512_S131072x1_S131072x512_1_0_n_n_0_1_1512 : GatherDims S196609x512 S131072x1 S131072x512 where
  offsetDims := [1]
  collapsedSliceDims := [0]
  operandBatchingDims := []
  startIndicesBatchingDims := []
  startIndexMap := [0]
  indexVectorDim := 1
  sliceSizes := ![1, 512]
  wf := gather_S196609x512_S131072x1_S131072x512_1_0_n_n_0_1_1512_wf
def scatter_S131072x512_S131072x1_S131072x512_1_0_0_1 : ScatterDims S131072x512 S131072x1 S131072x512 where
  updateWindowDims := [1]
  insertedWindowDims := [0]
  scatterDimsToOperandDims := [0]
  indexVectorDim := 1
  wf := scatter_S131072x512_S131072x1_S131072x512_1_0_0_1_wf

class Facts : Prop extends Facts₀ where

variable [Facts]
-- ==== Proof.RefOps.lean ====
/-
  The idealized reference's @main as lists of its host operations, in order, cut where the computation's
  stages end: the stable argsort of the expert ids; the sorted ids and the per-expert counts; the running
  sum of the counts; each sorted token's rank inside its expert and its bucket slot; the `where` that sends
  an overflowing token to the spare row; the dispatch of the token rows into the capacity buckets; the
  per-expert linear map with its bias; and the combine (the spare zero row appended, the gather back by
  slot, the scatter back to token order). The functions jax outlined (argsort, cumsum, _where) stand at
  their call sites over the call's buffers.
-/
import proofs.«178380_j84868553769176_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- The stable argsort of the expert ids (the outlined @argsort): an iota, and the two results of one sort. -/
abbrev sortOps : List (HloOp τ sig (Elt F)) :=
  [ StableHlo.TRef.nullary (.of main_call0_v0 : StableHlo.TRef sig ⟨S131072, .i32⟩) (iotaInDim S131072 32 0),
    StableHlo.TRef.binary (.of main_arg3 : StableHlo.TRef sig ⟨S131072, .i32⟩) (.of main_call0_v0 : StableHlo.TRef sig ⟨S131072, .i32⟩) (.of main_call0_v1_0 : StableHlo.TRef sig ⟨S131072, .i32⟩) (fun x y => (Host.sort2 S131072 0 comparator_i32_i32_d0 x y).1),
    StableHlo.TRef.binary (.of main_arg3 : StableHlo.TRef sig ⟨S131072, .i32⟩) (.of main_call0_v0 : StableHlo.TRef sig ⟨S131072, .i32⟩) (.of main_v0 : StableHlo.TRef sig ⟨S131072, .i32⟩) (fun x y => (Host.sort2 S131072 0 comparator_i32_i32_d0 x y).2) ]

/-- The sorted ids (a gather of the ids at the sort order, negative indices wrapped) and the per-expert counts (a scatter-add of ones). -/
abbrev countOps : List (HloOp τ sig (Elt F)) :=
  [ StableHlo.nullary main_c (constantI S_ 32 0#32),
    StableHlo.unary main_c main_v1 (broadcastInDim S131072 ![] bcast_S_S131072 : (⟨S_, .i32⟩ : BufTy).Contents (Elt F) → (⟨S131072, .i32⟩ : BufTy).Contents (Elt F)),
    StableHlo.binary main_v0 main_v1 main_v2 (cmpi .slt : (⟨S131072, .i32⟩ : BufTy).Contents (Elt F) → (⟨S131072, .i32⟩ : BufTy).Contents (Elt F) → (⟨S131072, .i1⟩ : BufTy).Contents (Elt F)),
    StableHlo.nullary main_c_0 (constantI S_ 32 131072#32),
    StableHlo.unary main_c_0 main_v3 (broadcastInDim S131072 ![] bcast_S_S131072 : (⟨S_, .i32⟩ : BufTy).Contents (Elt F) → (⟨S131072, .i32⟩ : BufTy).Contents (Elt F)),
    StableHlo.binary main_v0 main_v3 main_v4 (addi : (⟨S131072, .i32⟩ : BufTy).Contents (Elt F) → (⟨S131072, .i32⟩ : BufTy).Contents (Elt F) → (⟨S131072, .i32⟩ : BufTy).Contents (Elt F)),
    StableHlo.ternary main_v2 main_v4 main_v0 main_v5 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v5 main_v6 (broadcastInDim S131072x1 ![0] bcast_S131072_S131072x1_0 : (⟨S131072, .i32⟩ : BufTy).Contents (Elt F) → (⟨S131072x1, .i32⟩ : BufTy).Contents (Elt F)),
    StableHlo.binary main_arg3 main_v6 main_v7 ((fun x i => Host.gather gather_S131072_S131072x1_S131072_n_0_n_n_0_1_1 x i) : (⟨S131072, .i32⟩ : BufTy).Contents (Elt F) → (⟨S131072x1, .i32⟩ : BufTy).Contents (Elt F) → (⟨S131072, .i32⟩ : BufTy).Contents (Elt F)),
    StableHlo.nullary main_c_1 (constantI S_ 32 1#32),
    StableHlo.unary main_c_1 main_v8 (broadcastInDim S131072 ![] bcast_S_S131072 : (⟨S_, .i32⟩ : BufTy).Contents (Elt F) → (⟨S131072, .i32⟩ : BufTy).Contents (Elt F)),
    StableHlo.nullary main_c_2 (constantI S_ 32 0#32),
    StableHlo.unary main_c_2 main_v9 (broadcastInDim S64 ![] bcast_S_S64 : (⟨S_, .i32⟩ : BufTy).Contents (Elt F) → (⟨S64, .i32⟩ : BufTy).Contents (Elt F)),
    StableHlo.unary main_arg3 main_v10 (broadcastInDim S131072x1 ![0] bcast_S131072_S131072x1_0 : (⟨S131072, .i32⟩ : BufTy).Contents (Elt F) → (⟨S131072x1, .i32⟩ : BufTy).Contents (Elt F)),
    StableHlo.ternary main_v9 main_v10 main_v8 main_v11 ((fun x i u => Host.scatter scatter_S64_S131072x1_S131072_n_0_0_1 IntOp.addi x i u) : (⟨S64, .i32⟩ : BufTy).Contents (Elt F) → (⟨S131072x1, .i32⟩ : BufTy).Contents (Elt F) → (⟨S131072, .i32⟩ : BufTy).Contents (Elt F) → (⟨S64, .i32⟩ : BufTy).Contents (Elt F)) ]

/-- The inclusive running sum of the counts (the outlined @cumsum: a reduce_window of width 64 padded 63 low). -/
abbrev cumsumOps : List (HloOp τ sig (Elt F)) :=
  [ StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v11 : StableHlo.TRef sig ⟨S64, .i32⟩) (.of main_call1_call0_v0 : StableHlo.TRef sig ⟨S_, .i32⟩) (.of main_v12 : StableHlo.TRef sig ⟨S64, .i32⟩) (fun x v => Host.reduceWindow IntOp.addi ![64] ![1] ![63] ![0] x v reduceWindows_S64_S64_w64s1p63_0 h_S_) ]

/-- The group starts (running sum minus counts), each sorted token's rank inside its expert, the capacity test and the bucket slot expert * 3072 + rank. -/
abbrev rankOps : List (HloOp τ sig (Elt F)) :=
  [ StableHlo.binary main_v12 main_v11 main_v13 (subi : (⟨S64, .i32⟩ : BufTy).Contents (Elt F) → (⟨S64, .i32⟩ : BufTy).Contents (Elt F) → (⟨S64, .i32⟩ : BufTy).Contents (Elt F)),
    StableHlo.nullary main_v14 (iotaInDim S131072 32 0),
    StableHlo.nullary main_c_3 (constantI S_ 32 0#32),
    StableHlo.unary main_c_3 main_v15 (broadcastInDim S131072 ![] bcast_S_S131072 : (⟨S_, .i32⟩ : BufTy).Contents (Elt F) → (⟨S131072, .i32⟩ : BufTy).Contents (Elt F)),
    StableHlo.binary main_v7 main_v15 main_v16 (cmpi .slt : (⟨S131072, .i32⟩ : BufTy).Contents (Elt F) → (⟨S131072, .i32⟩ : BufTy).Contents (Elt F) → (⟨S131072, .i1⟩ : BufTy).Contents (Elt F)),
    StableHlo.nullary main_c_4 (constantI S_ 32 64#32),
    StableHlo.unary main_c_4 main_v17 (broadcastInDim S131072 ![] bcast_S_S131072 : (⟨S_, .i32⟩ : BufTy).Contents (Elt F) → (⟨S131072, .i32⟩ : BufTy).Contents (Elt F)),
    StableHlo.binary main_v7 main_v17 main_v18 (addi : (⟨S131072, .i32⟩ : BufTy).Contents (Elt F) → (⟨S131072, .i32⟩ : BufTy).Contents (Elt F) → (⟨S131072, .i32⟩ : BufTy).Contents (Elt F)),
    StableHlo.ternary main_v16 main_v18 main_v7 main_v19 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v19 main_v20 (broadcastInDim S131072x1 ![0] bcast_S131072_S131072x1_0 : (⟨S131072, .i32⟩ : BufTy).Contents (Elt F) → (⟨S131072x1, .i32⟩ : BufTy).Contents (Elt F)),
    StableHlo.binary main_v13 main_v20 main_v21 ((fun x i => Host.gather gather_S64_S131072x1_S131072_n_0_n_n_0_1_1 x i) : (⟨S64, .i32⟩ : BufTy).Contents (Elt F) → (⟨S131072x1, .i32⟩ : BufTy).Contents (Elt F) → (⟨S131072, .i32⟩ : BufTy).Contents (Elt F)),
    StableHlo.binary main_v14 main_v21 main_v22 (subi : (⟨S131072, .i32⟩ : BufTy).Contents (Elt F) → (⟨S131072, .i32⟩ : BufTy).Contents (Elt F) → (⟨S131072, .i32⟩ : BufTy).Contents (Elt F)),
    StableHlo.nullary main_c_5 (constantI S_ 32 3072#32),
    StableHlo.unary main_c_5 main_v23 (broadcastInDim S131072 ![] bcast_S_S131072 : (⟨S_, .i32⟩ : BufTy).Contents (Elt F) → (⟨S131072, .i32⟩ : BufTy).Contents (Elt F)),
    StableHlo.binary main_v22 main_v23 main_v24 (cmpi .slt : (⟨S131072, .i32⟩ : BufTy).Contents (Elt F) → (⟨S131072, .i32⟩ : BufTy).Contents (Elt F) → (⟨S131072, .i1⟩ : BufTy).Contents (Elt F)),
    StableHlo.nullary main_c_6 (constantI S_ 32 3072#32),
    StableHlo.unary main_c_6 main_v25 (broadcastInDim S131072 ![] bcast_S_S131072 : (⟨S_, .i32⟩ : BufTy).Contents (Elt F) → (⟨S131072, .i32⟩ : BufTy).Contents (Elt F)),
    StableHlo.binary main_v7 main_v25 main_v26 (muli : (⟨S131072, .i32⟩ : BufTy).Contents (Elt F) → (⟨S131072, .i32⟩ : BufTy).Contents (Elt F) → (⟨S131072, .i32⟩ : BufTy).Contents (Elt F)),
    StableHlo.binary main_v26 main_v22 main_v27 (addi : (⟨S131072, .i32⟩ : BufTy).Contents (Elt F) → (⟨S131072, .i32⟩ : BufTy).Contents (Elt F) → (⟨S131072, .i32⟩ : BufTy).Contents (Elt F)),
    StableHlo.nullary main_c_7 (constantI S_ 32 196608#32) ]

/-- The outlined @_where: a token over capacity goes to the spare row 196608. -/
abbrev whereOps : List (HloOp τ sig (Elt F)) :=
  [ StableHlo.TRef.unary (.of main_c_7 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S131072, .i32⟩) (broadcastInDim S131072 ![] bcast_S_S131072),
    StableHlo.TRef.ternary (.of main_v24 : StableHlo.TRef sig ⟨S131072, .i1⟩) (.of main_v27 : StableHlo.TRef sig ⟨S131072, .i32⟩) (.of main_call2_v1 : StableHlo.TRef sig ⟨S131072, .i32⟩) (.of main_v28 : StableHlo.TRef sig ⟨S131072, .i32⟩) select ]

/-- The token rows gathered in sort order and scattered into the 196609 bucket rows; the spare row dropped; the buckets as [64, 3072, 512]. -/
abbrev dispatchOps : List (HloOp τ sig (Elt F)) :=
  [ StableHlo.nullary main_cst (constant S_ .f32 0x00000000#32),
    StableHlo.unary main_cst main_v29 (broadcastInDim S196609x512 ![] bcast_S_S196609x512 : (⟨S_, .f32⟩ : BufTy).Contents (Elt F) → (⟨S196609x512, .f32⟩ : BufTy).Contents (Elt F)),
    StableHlo.nullary main_c_8 (constantI S_ 32 0#32),
    StableHlo.unary main_c_8 main_v30 (broadcastInDim S131072 ![] bcast_S_S131072 : (⟨S_, .i32⟩ : BufTy).Contents (Elt F) → (⟨S131072, .i32⟩ : BufTy).Contents (Elt F)),
    StableHlo.binary main_v0 main_v30 main_v31 (cmpi .slt : (⟨S131072, .i32⟩ : BufTy).Contents (Elt F) → (⟨S131072, .i32⟩ : BufTy).Contents (Elt F) → (⟨S131072, .i1⟩ : BufTy).Contents (Elt F)),
    StableHlo.nullary main_c_9 (constantI S_ 32 131072#32),
    StableHlo.unary main_c_9 main_v32 (broadcastInDim S131072 ![] bcast_S_S131072 : (⟨S_, .i32⟩ : BufTy).Contents (Elt F) → (⟨S131072, .i32⟩ : BufTy).Contents (Elt F)),
    StableHlo.binary main_v0 main_v32 main_v33 (addi : (⟨S131072, .i32⟩ : BufTy).Contents (Elt F) → (⟨S131072, .i32⟩ : BufTy).Contents (Elt F) → (⟨S131072, .i32⟩ : BufTy).Contents (Elt F)),
    StableHlo.ternary main_v31 main_v33 main_v0 main_v34 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v34 main_v35 (broadcastInDim S131072x1 ![0] bcast_S131072_S131072x1_0 : (⟨S131072, .i32⟩ : BufTy).Contents (Elt F) → (⟨S131072x1, .i32⟩ : BufTy).Contents (Elt F)),
    StableHlo.binary main_arg0 main_v35 main_v36 ((fun x i => Host.gather gather_S131072x512_S131072x1_S131072x512_1_0_n_n_0_1_1512 x i) : (⟨S131072x512, .f32⟩ : BufTy).Contents (Elt F) → (⟨S131072x1, .i32⟩ : BufTy).Contents (Elt F) → (⟨S131072x512, .f32⟩ : BufTy).Contents (Elt F)),
    StableHlo.nullary main_c_10 (constantI S_ 32 0#32),
    StableHlo.unary main_c_10 main_v37 (broadcastInDim S131072 ![] bcast_S_S131072 : (⟨S_, .i32⟩ : BufTy).Contents (Elt F) → (⟨S131072, .i32⟩ : BufTy).Contents (Elt F)),
    StableHlo.binary main_v28 main_v37 main_v38 (cmpi .slt : (⟨S131072, .i32⟩ : BufTy).Contents (Elt F) → (⟨S131072, .i32⟩ : BufTy).Contents (Elt F) → (⟨S131072, .i1⟩ : BufTy).Contents (Elt F)),
    StableHlo.nullary main_c_11 (constantI S_ 32 196609#32),
    StableHlo.unary main_c_11 main_v39 (broadcastInDim S131072 ![] bcast_S_S131072 : (⟨S_, .i32⟩ : BufTy).Contents (Elt F) → (⟨S131072, .i32⟩ : BufTy).Contents (Elt F)),
    StableHlo.binary main_v28 main_v39 main_v40 (addi : (⟨S131072, .i32⟩ : BufTy).Contents (Elt F) → (⟨S131072, .i32⟩ : BufTy).Contents (Elt F) → (⟨S131072, .i32⟩ : BufTy).Contents (Elt F)),
    StableHlo.ternary main_v38 main_v40 main_v28 main_v41 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v41 main_v42 (broadcastInDim S131072x1 ![0] bcast_S131072_S131072x1_0 : (⟨S131072, .i32⟩ : BufTy).Contents (Elt F) → (⟨S131072x1, .i32⟩ : BufTy).Contents (Elt F)),
    StableHlo.ternary main_v29 main_v42 main_v36 main_v43 ((fun x i u => Host.scatter scatter_S196609x512_S131072x1_S131072x512_1_0_0_1 (fun _ b => b) x i u) : (⟨S196609x512, .f32⟩ : BufTy).Contents (Elt F) → (⟨S131072x1, .i32⟩ : BufTy).Contents (Elt F) → (⟨S131072x512, .f32⟩ : BufTy).Contents (Elt F) → (⟨S196609x512, .f32⟩ : BufTy).Contents (Elt F)),
    StableHlo.unary main_v43 main_v44 ((extractStridedSlice S196608x512 ![0, 0] · slices_S196609x512_S196608x512_0_0) : (⟨S196609x512, .f32⟩ : BufTy).Contents (Elt F) → (⟨S196608x512, .f32⟩ : BufTy).Contents (Elt F)),
    StableHlo.reshape main_v44 main_v45 rfl shapeCasts_S196608x512_S64x3072x512 ]

/-- Everything before the linear map: the routing and the dispatch. -/
abbrev preOps : List (HloOp τ sig (Elt F)) :=
  List.flatten [sortOps, countOps, cumsumOps, rankOps, whereOps, dispatchOps]

/-- The per-expert linear map: the batched contraction of the buckets with the weights over the input features, plus the bias repeated along the capacity axis. -/
abbrev linearOps : List (HloOp τ sig (Elt F)) :=
  [ StableHlo.binary main_v45 main_arg1 main_v46 ((fun l r => Host.dotGeneral dot_S64x3072x512_S64x512x512_S64x3072x512_2_2_1_1_0_0 none l r) : (⟨S64x3072x512, .f32⟩ : BufTy).Contents (Elt F) → (⟨S64x512x512, .f32⟩ : BufTy).Contents (Elt F) → (⟨S64x3072x512, .f32⟩ : BufTy).Contents (Elt F)),
    StableHlo.unary main_arg2 main_v47 (broadcastInDim S64x1x512 ![0, 2] bcast_S64x512_S64x1x512_0_2 : (⟨S64x512, .f32⟩ : BufTy).Contents (Elt F) → (⟨S64x1x512, .f32⟩ : BufTy).Contents (Elt F)),
    StableHlo.unary main_v47 main_v48 (broadcastInDim S64x3072x512 ![0, 1, 2] bcast_S64x1x512_S64x3072x512_0_1_2 : (⟨S64x1x512, .f32⟩ : BufTy).Contents (Elt F) → (⟨S64x3072x512, .f32⟩ : BufTy).Contents (Elt F)),
    StableHlo.binary main_v46 main_v48 main_v49 (addf : (⟨S64x3072x512, .f32⟩ : BufTy).Contents (Elt F) → (⟨S64x3072x512, .f32⟩ : BufTy).Contents (Elt F) → (⟨S64x3072x512, .f32⟩ : BufTy).Contents (Elt F)) ]

/-- The combine: the result rows as [196608, 512] with a zero spare row appended, gathered by slot, scattered back to token order over zeros. -/
abbrev combineOps : List (HloOp τ sig (Elt F)) :=
  [ StableHlo.reshape main_v49 main_v50 rfl shapeCasts_S64x3072x512_S196608x512,
    StableHlo.nullary main_cst_12 (constant S_ .f32 0x00000000#32),
    StableHlo.unary main_cst_12 main_v51 (broadcastInDim S1x512 ![] bcast_S_S1x512 : (⟨S_, .f32⟩ : BufTy).Contents (Elt F) → (⟨S1x512, .f32⟩ : BufTy).Contents (Elt F)),
    StableHlo.binary main_v50 main_v51 main_v52 ((fun a b => concatenate S196609x512 0 [⟨S196608x512, a⟩, ⟨S1x512, b⟩] concatenates_S196608x512_S1x512_S196609x512_d0) : (⟨S196608x512, .f32⟩ : BufTy).Contents (Elt F) → (⟨S1x512, .f32⟩ : BufTy).Contents (Elt F) → (⟨S196609x512, .f32⟩ : BufTy).Contents (Elt F)),
    StableHlo.nullary main_c_13 (constantI S_ 32 0#32),
    StableHlo.unary main_c_13 main_v53 (broadcastInDim S131072 ![] bcast_S_S131072 : (⟨S_, .i32⟩ : BufTy).Contents (Elt F) → (⟨S131072, .i32⟩ : BufTy).Contents (Elt F)),
    StableHlo.binary main_v28 main_v53 main_v54 (cmpi .slt : (⟨S131072, .i32⟩ : BufTy).Contents (Elt F) → (⟨S131072, .i32⟩ : BufTy).Contents (Elt F) → (⟨S131072, .i1⟩ : BufTy).Contents (Elt F)),
    StableHlo.nullary main_c_14 (constantI S_ 32 196609#32),
    StableHlo.unary main_c_14 main_v55 (broadcastInDim S131072 ![] bcast_S_S131072 : (⟨S_, .i32⟩ : BufTy).Contents (Elt F) → (⟨S131072, .i32⟩ : BufTy).Contents (Elt F)),
    StableHlo.binary main_v28 main_v55 main_v56 (addi : (⟨S131072, .i32⟩ : BufTy).Contents (Elt F) → (⟨S131072, .i32⟩ : BufTy).Contents (Elt F) → (⟨S131072, .i32⟩ : BufTy).Contents (Elt F)),
    StableHlo.ternary main_v54 main_v56 main_v28 main_v57 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v57 main_v58 (broadcastInDim S131072x1 ![0] bcast_S131072_S131072x1_0 : (⟨S131072, .i32⟩ : BufTy).Contents (Elt F) → (⟨S131072x1, .i32⟩ : BufTy).Contents (Elt F)),
    StableHlo.binary main_v52 main_v58 main_v59 ((fun x i => Host.gather gather_S196609x512_S131072x1_S131072x512_1_0_n_n_0_1_1512 x i) : (⟨S196609x512, .f32⟩ : BufTy).Contents (Elt F) → (⟨S131072x1, .i32⟩ : BufTy).Contents (Elt F) → (⟨S131072x512, .f32⟩ : BufTy).Contents (Elt F)),
    StableHlo.nullary main_cst_15 (constant S_ .f32 0x00000000#32),
    StableHlo.unary main_cst_15 main_v60 (broadcastInDim S131072x512 ![] bcast_S_S131072x512 : (⟨S_, .f32⟩ : BufTy).Contents (Elt F) → (⟨S131072x512, .f32⟩ : BufTy).Contents (Elt F)),
    StableHlo.nullary main_c_16 (constantI S_ 32 0#32),
    StableHlo.unary main_c_16 main_v61 (broadcastInDim S131072 ![] bcast_S_S131072 : (⟨S_, .i32⟩ : BufTy).Contents (Elt F) → (⟨S131072, .i32⟩ : BufTy).Contents (Elt F)),
    StableHlo.binary main_v0 main_v61 main_v62 (cmpi .slt : (⟨S131072, .i32⟩ : BufTy).Contents (Elt F) → (⟨S131072, .i32⟩ : BufTy).Contents (Elt F) → (⟨S131072, .i1⟩ : BufTy).Contents (Elt F)),
    StableHlo.nullary main_c_17 (constantI S_ 32 131072#32),
    StableHlo.unary main_c_17 main_v63 (broadcastInDim S131072 ![] bcast_S_S131072 : (⟨S_, .i32⟩ : BufTy).Contents (Elt F) → (⟨S131072, .i32⟩ : BufTy).Contents (Elt F)),
    StableHlo.binary main_v0 main_v63 main_v64 (addi : (⟨S131072, .i32⟩ : BufTy).Contents (Elt F) → (⟨S131072, .i32⟩ : BufTy).Contents (Elt F) → (⟨S131072, .i32⟩ : BufTy).Contents (Elt F)),
    StableHlo.ternary main_v62 main_v64 main_v0 main_v65 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v65 main_v66 (broadcastInDim S131072x1 ![0] bcast_S131072_S131072x1_0 : (⟨S131072, .i32⟩ : BufTy).Contents (Elt F) → (⟨S131072x1, .i32⟩ : BufTy).Contents (Elt F)),
    StableHlo.ternary main_v60 main_v66 main_v59 main_v67 ((fun x i u => Host.scatter scatter_S131072x512_S131072x1_S131072x512_1_0_0_1 (fun _ b => b) x i u) : (⟨S131072x512, .f32⟩ : BufTy).Contents (Elt F) → (⟨S131072x1, .i32⟩ : BufTy).Contents (Elt F) → (⟨S131072x512, .f32⟩ : BufTy).Contents (Elt F) → (⟨S131072x512, .f32⟩ : BufTy).Contents (Elt F)) ]

/-- Everything from the linear map on. -/
abbrev postOps : List (HloOp τ sig (Elt F)) := linearOps ++ combineOps

/-- @main's operations, in order. -/
abbrev ops : List (HloOp τ sig (Elt F)) := preOps ++ postOps

end Cert.ReferenceIdeal.Ops

end
-- ==== Proof.RefRun.lean ====
/-
  The run of the idealized reference program.

  Its @main is one straight line of host operations: the stages of the routing, the dispatch, the per-expert
  linear map and the combine in order, every call of an outlined function unfolded at its call site over the
  call's own buffers. So every weakly fair execution of it terminates, and leaves each buffer at the fold of
  those operations over what the device's buffers held at launch. No operation writes an argument buffer, so
  the four arguments end as launched: after the whole line, and after its prefix (everything before the
  linear map) alike.
-/
import proofs.«178380_j84868553769176_1_alg».proof.Proof.RefOps
import proofs.«178380_j84868553769176_1_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Cert.ReferenceIdeal.Ops Idealize.ShloMosaic Idealize.ShloMosaic.TcCoe Idealize.SL.Sem

variable {F : FTy → Type} [FloatOps F]

/-! ## The program is the line -/

/-- @main is the straight line of its operations: the two windows in sequence, each outlined function's body at its
    call, are one chain of steps once the sequencing is re-associated, which it is by computation (sequencing grafts
    the continuation onto the leaves of a finite tree of requests). -/
theorem main_eq (c : Dev nD) : main (F := F) c = StableHlo.seq (ops (F := F)) := by
  chain_rfl

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-! ## From the stages to the line

A property of operations that holds of every operation of each stage holds of every operation of the prefix, of
the rest, and of the whole line: the line is the stages appended. -/

theorem preOps_forall {P : HloOp τ sig (Elt F) → Prop} (h₁ : (sortOps (F := F)).Forall P) (h₂ : (countOps (F := F)).Forall P)
    (h₃ : (cumsumOps (F := F)).Forall P) (h₄ : (rankOps (F := F)).Forall P) (h₅ : (whereOps (F := F)).Forall P)
    (h₆ : (dispatchOps (F := F)).Forall P) : (preOps (F := F)).Forall P := by
  show (List.flatten [sortOps, countOps, cumsumOps, rankOps, whereOps, dispatchOps]).Forall P
  simp only [List.flatten_cons, List.flatten_nil, List.append_nil, List.forall_append]
  exact ⟨h₁, h₂, h₃, h₄, h₅, h₆⟩

theorem postOps_forall {P : HloOp τ sig (Elt F) → Prop} (h₁ : (linearOps (F := F)).Forall P) (h₂ : (combineOps (F := F)).Forall P) :
    (postOps (F := F)).Forall P :=
  List.forall_append.mpr ⟨h₁, h₂⟩

theorem ops_forall {P : HloOp τ sig (Elt F) → Prop} (h₁ : (preOps (F := F)).Forall P) (h₂ : (postOps (F := F)).Forall P) :
    (ops (F := F)).Forall P :=
  List.forall_append.mpr ⟨h₁, h₂⟩

/-! ## Every operation touches TensorCore references only

Stage by stage: each operation's buffers are its operands' and its result's, all TensorCore references. -/

theorem sortOps_sub : (sortOps : List (HloOp τ sig (Elt F))).Forall fun op => op.bufs ⊆ StableHlo.tcRefs τ sig := by
  simp only [sortOps, List.Forall, StableHlo.nullary_bufs_sub, StableHlo.unary_bufs_sub, StableHlo.binary_bufs_sub,
    StableHlo.ternary_bufs_sub, StableHlo.reshape_bufs_sub, and_self]

theorem countOps_sub : (countOps : List (HloOp τ sig (Elt F))).Forall fun op => op.bufs ⊆ StableHlo.tcRefs τ sig := by
  simp only [countOps, List.Forall, StableHlo.nullary_bufs_sub, StableHlo.unary_bufs_sub, StableHlo.binary_bufs_sub,
    StableHlo.ternary_bufs_sub, StableHlo.reshape_bufs_sub, and_self]

theorem cumsumOps_sub : (cumsumOps : List (HloOp τ sig (Elt F))).Forall fun op => op.bufs ⊆ StableHlo.tcRefs τ sig := by
  simp only [cumsumOps, List.Forall, StableHlo.nullary_bufs_sub, StableHlo.unary_bufs_sub, StableHlo.binary_bufs_sub,
    StableHlo.ternary_bufs_sub, StableHlo.reshape_bufs_sub, and_self]

theorem rankOps_sub : (rankOps : List (HloOp τ sig (Elt F))).Forall fun op => op.bufs ⊆ StableHlo.tcRefs τ sig := by
  simp only [rankOps, List.Forall, StableHlo.nullary_bufs_sub, StableHlo.unary_bufs_sub, StableHlo.binary_bufs_sub,
    StableHlo.ternary_bufs_sub, StableHlo.reshape_bufs_sub, and_self]

theorem whereOps_sub : (whereOps : List (HloOp τ sig (Elt F))).Forall fun op => op.bufs ⊆ StableHlo.tcRefs τ sig := by
  simp only [whereOps, List.Forall, StableHlo.nullary_bufs_sub, StableHlo.unary_bufs_sub, StableHlo.binary_bufs_sub,
    StableHlo.ternary_bufs_sub, StableHlo.reshape_bufs_sub, and_self]

theorem dispatchOps_sub : (dispatchOps : List (HloOp τ sig (Elt F))).Forall fun op => op.bufs ⊆ StableHlo.tcRefs τ sig := by
  simp only [dispatchOps, List.Forall, StableHlo.nullary_bufs_sub, StableHlo.unary_bufs_sub, StableHlo.binary_bufs_sub,
    StableHlo.ternary_bufs_sub, StableHlo.reshape_bufs_sub, and_self]

theorem linearOps_sub : (linearOps : List (HloOp τ sig (Elt F))).Forall fun op => op.bufs ⊆ StableHlo.tcRefs τ sig := by
  simp only [linearOps, List.Forall, StableHlo.nullary_bufs_sub, StableHlo.unary_bufs_sub, StableHlo.binary_bufs_sub,
    StableHlo.ternary_bufs_sub, StableHlo.reshape_bufs_sub, and_self]

theorem combineOps_sub : (combineOps : List (HloOp τ sig (Elt F))).Forall fun op => op.bufs ⊆ StableHlo.tcRefs τ sig := by
  simp only [combineOps, List.Forall, StableHlo.nullary_bufs_sub, StableHlo.unary_bufs_sub, StableHlo.binary_bufs_sub,
    StableHlo.ternary_bufs_sub, StableHlo.reshape_bufs_sub, and_self]

theorem ops_sub : (ops : List (HloOp τ sig (Elt F))).Forall fun op => op.bufs ⊆ StableHlo.tcRefs τ sig :=
  ops_forall (preOps_forall sortOps_sub countOps_sub cumsumOps_sub rankOps_sub whereOps_sub dispatchOps_sub)
    (postOps_forall linearOps_sub combineOps_sub)

/-! ## No operation allocates

Stage by stage: each operation determines its results, so the set of buffers it leaves undetermined is empty. -/

theorem sortOps_fresh : (sortOps : List (HloOp τ sig (Elt F))).Forall fun op => op.fresh = ∅ := by
  simp only [sortOps, List.Forall]; repeat' constructor

theorem countOps_fresh : (countOps : List (HloOp τ sig (Elt F))).Forall fun op => op.fresh = ∅ := by
  simp only [countOps, List.Forall]; repeat' constructor

theorem cumsumOps_fresh : (cumsumOps : List (HloOp τ sig (Elt F))).Forall fun op => op.fresh = ∅ := by
  simp only [cumsumOps, List.Forall]; repeat' constructor

theorem rankOps_fresh : (rankOps : List (HloOp τ sig (Elt F))).Forall fun op => op.fresh = ∅ := by
  simp only [rankOps, List.Forall]; repeat' constructor

theorem whereOps_fresh : (whereOps : List (HloOp τ sig (Elt F))).Forall fun op => op.fresh = ∅ := by
  simp only [whereOps, List.Forall]; repeat' constructor

theorem dispatchOps_fresh : (dispatchOps : List (HloOp τ sig (Elt F))).Forall fun op => op.fresh = ∅ := by
  simp only [dispatchOps, List.Forall]; repeat' constructor

theorem linearOps_fresh : (linearOps : List (HloOp τ sig (Elt F))).Forall fun op => op.fresh = ∅ := by
  simp only [linearOps, List.Forall]; repeat' constructor

theorem combineOps_fresh : (combineOps : List (HloOp τ sig (Elt F))).Forall fun op => op.fresh = ∅ := by
  simp only [combineOps, List.Forall]; repeat' constructor

theorem ops_fresh : (ops : List (HloOp τ sig (Elt F))).Forall fun op => op.fresh = ∅ :=
  ops_forall (preOps_forall sortOps_fresh countOps_fresh cumsumOps_fresh rankOps_fresh whereOps_fresh dispatchOps_fresh)
    (postOps_forall linearOps_fresh combineOps_fresh)

/-! ## The run -/

/-- At the compiled mesh, for any float values, from any memory with zero counters: every weakly fair execution of
    the reference's @main terminates, and every final state has each TensorCore buffer at the fold of the line's
    operations over what the device's buffers held at launch. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after (ops (F := F)) (StableHlo.launchContents m c) (b : DevRef τ sig) :=
  StableHlo.run_seq scopedRefs_eq scopedSems_eq defs main (fun _ => ops) main_eq (fun _ => ops_sub) m ρ
    (hfresh := fun _ => List.forall_iff_forall_mem.mp ops_fresh)

/-! ## The arguments are written by no operation

Each operation writes its own result buffer only, and no result buffer is an argument's: told apart as references. -/

/-- The operation writes none of the four argument buffers. -/
def KeepsArgs (op : HloOp τ sig (Elt F)) : Prop :=
  (main_arg0 : DevRef τ sig) ∉ op.writes ∧ (main_arg1 : DevRef τ sig) ∉ op.writes
    ∧ (main_arg2 : DevRef τ sig) ∉ op.writes ∧ (main_arg3 : DevRef τ sig) ∉ op.writes

theorem sortOps_keeps : (sortOps : List (HloOp τ sig (Elt F))).Forall KeepsArgs := by
  simp only [sortOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem countOps_keeps : (countOps : List (HloOp τ sig (Elt F))).Forall KeepsArgs := by
  simp only [countOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem cumsumOps_keeps : (cumsumOps : List (HloOp τ sig (Elt F))).Forall KeepsArgs := by
  simp only [cumsumOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem rankOps_keeps : (rankOps : List (HloOp τ sig (Elt F))).Forall KeepsArgs := by
  simp only [rankOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem whereOps_keeps : (whereOps : List (HloOp τ sig (Elt F))).Forall KeepsArgs := by
  simp only [whereOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem dispatchOps_keeps : (dispatchOps : List (HloOp τ sig (Elt F))).Forall KeepsArgs := by
  simp only [dispatchOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem linearOps_keeps : (linearOps : List (HloOp τ sig (Elt F))).Forall KeepsArgs := by
  simp only [linearOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem combineOps_keeps : (combineOps : List (HloOp τ sig (Elt F))).Forall KeepsArgs := by
  simp only [combineOps, List.Forall, KeepsArgs, StableHlo.nullary_writes, StableHlo.unary_writes, StableHlo.binary_writes,
    StableHlo.ternary_writes, StableHlo.reshape_writes, Finset.mem_singleton]
  repeat' apply And.intro
  all_goals exact StableHlo.devRef_ne_of_ne (by decide)

theorem preOps_keeps : (preOps : List (HloOp τ sig (Elt F))).Forall KeepsArgs :=
  preOps_forall sortOps_keeps countOps_keeps cumsumOps_keeps rankOps_keeps whereOps_keeps dispatchOps_keeps

theorem ops_keeps : (ops : List (HloOp τ sig (Elt F))).Forall KeepsArgs :=
  ops_forall preOps_keeps (postOps_forall linearOps_keeps combineOps_keeps)

/-- After the whole line each argument buffer holds what it held before. -/
theorem kept_arg0 (V : Valuation τ sig (Elt F)) : StableHlo.after (ops (F := F)) V (main_arg0 : DevRef τ sig) = V (main_arg0 : DevRef τ sig) :=
  StableHlo.after_of_forall_not_mem _ V fun op h => (List.forall_iff_forall_mem.mp ops_keeps op h).1
theorem kept_arg1 (V : Valuation τ sig (Elt F)) : StableHlo.after (ops (F := F)) V (main_arg1 : DevRef τ sig) = V (main_arg1 : DevRef τ sig) :=
  StableHlo.after_of_forall_not_mem _ V fun op h => (List.forall_iff_forall_mem.mp ops_keeps op h).2.1
theorem kept_arg2 (V : Valuation τ sig (Elt F)) : StableHlo.after (ops (F := F)) V (main_arg2 : DevRef τ sig) = V (main_arg2 : DevRef τ sig) :=
  StableHlo.after_of_forall_not_mem _ V fun op h => (List.forall_iff_forall_mem.mp ops_keeps op h).2.2.1
theorem kept_arg3 (V : Valuation τ sig (Elt F)) : StableHlo.after (ops (F := F)) V (main_arg3 : DevRef τ sig) = V (main_arg3 : DevRef τ sig) :=
  StableHlo.after_of_forall_not_mem _ V fun op h => (List.forall_iff_forall_mem.mp ops_keeps op h).2.2.2

/-- After the prefix alone (everything before the linear map) likewise. -/
theorem pre_kept_arg0 (V : Valuation τ sig (Elt F)) : StableHlo.after (preOps (F := F)) V (main_arg0 : DevRef τ sig) = V (main_arg0 : DevRef τ sig) :=
  StableHlo.after_of_forall_not_mem _ V fun op h => (List.forall_iff_forall_mem.mp preOps_keeps op h).1
theorem pre_kept_arg1 (V : Valuation τ sig (Elt F)) : StableHlo.after (preOps (F := F)) V (main_arg1 : DevRef τ sig) = V (main_arg1 : DevRef τ sig) :=
  StableHlo.after_of_forall_not_mem _ V fun op h => (List.forall_iff_forall_mem.mp preOps_keeps op h).2.1
theorem pre_kept_arg2 (V : Valuation τ sig (Elt F)) : StableHlo.after (preOps (F := F)) V (main_arg2 : DevRef τ sig) = V (main_arg2 : DevRef τ sig) :=
  StableHlo.after_of_forall_not_mem _ V fun op h => (List.forall_iff_forall_mem.mp preOps_keeps op h).2.2.1
theorem pre_kept_arg3 (V : Valuation τ sig (Elt F)) : StableHlo.after (preOps (F := F)) V (main_arg3 : DevRef τ sig) = V (main_arg3 : DevRef τ sig) :=
  StableHlo.after_of_forall_not_mem _ V fun op h => (List.forall_iff_forall_mem.mp preOps_keeps op h).2.2.2

end Cert.ReferenceIdeal.Run

end
-- ==== Proof.LibBatchedRowDot.lean ====
/-
  General lemmas about a contraction of the LAST axes of two operands, read at the extended reals.

  * `RowDot`: a dot whose dimension numbers contract axis 1 of an [M, K] operand with axis 1 of an [N, K]
    operand, with no batch axis (a matrix times the transpose of another), has at the output entry (p, q) the
    operand entries (p, k) and (q, k) at contraction position k: its value there is the sum over k of
    l (p, k) · r (q, k). Stated for a kernel's matrix product into a zero accumulator.
  * `BatchedRowDot`: the same under one leading batch axis: [B, M, K] with [B, N, K], batch axis 0 on both
    sides, contracting axis 2 with axis 2; the entry (e, p, q) is the sum over k of l (e, p, k) · r (e, q, k).
    Stated for the host's dot_general.
  Both hold for every record with those dimension numbers, whatever its well-formedness proof.

  How each is obtained. The contraction's entry is a sum over the contraction index set, whose one axis has
  extent K; that index set is identified with the range of k. The operand indices are read axis by axis: an
  operand's batch axis carries the output's batch coordinate, its free axis carries the output coordinate of
  that operand's row, and its contracted axis carries k. With the dimension lists written out, every record
  with those lists is the written-out record at its own well-formedness proof, so the general statements
  follow from the written-out ones.
-/
import Idealize.ShloMosaic.PureOps.Ideal.Laws
import Idealize.ShloMosaic.Lib.ValueIdx

noncomputable section

namespace Idealize.ShloMosaic.RowDot

open Idealize.ShloMosaic Idealize.ShloMosaic.ValueIdx
open scoped BigOperators

variable {B M K N : Nat}

/-! ## A matrix times the transpose of another: [M, K] with [N, K], contracting the last axes -/

/-- The record with the dimension numbers of a product with a transposed right operand, at any well-formedness proof. -/
abbrev mkT (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) :=
  ⟨[1], [1], [0], [0], [], [], wf⟩

section
variable (wf : DotDims.WF (⟨2, ![M, K]⟩ : Shape) (⟨2, ![N, K]⟩ : Shape) (⟨2, ![M, N]⟩ : Shape) [1] [1] [0] [0] [] [])

/-- The left operand's row coordinate is the output's row coordinate. -/
theorem lhsT0 (j : (⟨2, ![M, N]⟩ : Shape).Idx) (q : (mkT wf).contr.Idx) : ((mkT wf).lhsIdx j q 0).val = (j 0).val := by
  unfold DotDims.lhsIdx
  rw [dif_neg (show ¬(0 : Fin (⟨2, ![M, K]⟩ : Shape).rank) ∈ (mkT wf).lhsBatch from List.not_mem_nil),
    dif_pos (show (0 : Fin (⟨2, ![M, K]⟩ : Shape).rank) ∈ (mkT wf).lhsNonContracting from List.mem_singleton_self _)]
  rfl

/-- The left operand's column coordinate is the contraction position. -/
theorem lhsT1 (j : (⟨2, ![M, N]⟩ : Shape).Idx) (q : (mkT wf).contr.Idx) : ((mkT wf).lhsIdx j q 1).val = (q ⟨0, Nat.one_pos⟩).val :=
  (mkT wf).lhsIdx_val_of_single rfl j q

/-- The right operand's row coordinate is the output's column coordinate. -/
theorem rhsT0 (j : (⟨2, ![M, N]⟩ : Shape).Idx) (q : (mkT wf).contr.Idx) : ((mkT wf).rhsIdx j q 0).val = (j 1).val := by
  unfold DotDims.rhsIdx
  rw [dif_neg (show ¬(0 : Fin (⟨2, ![N, K]⟩ : Shape).rank) ∈ (mkT wf).rhsBatch from List.not_mem_nil),
    dif_pos (show (0 : Fin (⟨2, ![N, K]⟩ : Shape).rank) ∈ (mkT wf).rhsNonContracting from List.mem_singleton_self _)]
  rfl

/-- The right operand's column coordinate is the contraction position. -/
theorem rhsT1 (j : (⟨2, ![M, N]⟩ : Shape).Idx) (q : (mkT wf).contr.Idx) : ((mkT wf).rhsIdx j q 1).val = (q ⟨0, Nat.one_pos⟩).val :=
  (mkT wf).rhsIdx_val_of_single rfl j q

/-- The contraction sum at the entry (p, q): over k, the left entry (p, k) times the right entry (q, k). -/
theorem sum_mkT {α : Type} [AddCommMonoid α] [Mul α] (l : (⟨2, ![M, K]⟩ : Shape).Idx → α) (r : (⟨2, ![N, K]⟩ : Shape).Idx → α)
    (p : Fin M) (q : Fin N) :
    ∑ k : (mkT wf).contr.Idx, l ((mkT wf).lhsIdx (ix2 p q) k) * r ((mkT wf).rhsIdx (ix2 p q) k)
      = ∑ k : Fin K, l (ix2 p k) * r (ix2 q k) := by
  rw [← Equiv.sum_comp (contrEquiv1 (mkT wf) K rfl rfl).symm]
  refine Finset.sum_congr rfl fun k _ => ?_
  have hk := contrEquiv1_symm_val (mkT wf) K rfl rfl k
  have el : (mkT wf).lhsIdx (ix2 p q) ((contrEquiv1 (mkT wf) K rfl rfl).symm k) = ix2 p k := funext fun a => Fin.ext (by
    match a with
    | ⟨0, _⟩ => exact lhsT0 wf _ _
    | ⟨1, _⟩ => exact (lhsT1 wf _ _).trans hk)
  have er : (mkT wf).rhsIdx (ix2 p q) ((contrEquiv1 (mkT wf) K rfl rfl).symm k) = ix2 q k := funext fun a => Fin.ext (by
    match a with
    | ⟨0, _⟩ => exact rhsT0 wf _ _
    | ⟨1, _⟩ => exact (rhsT1 wf _ _).trans hk)
  rw [el, er]
end

/-- Every record whose dimension numbers are those of the product with a transposed right operand is `mkT` of its own
    well-formedness proof, so its contraction sum is the same. -/
theorem sum_of_transposed {α : Type} [AddCommMonoid α] [Mul α]
    (D : DotDims (⟨2, ![M, K]⟩ : Shape) (⟨2, ![N, K]⟩ : Shape) (⟨2, ![M, N]⟩ : Shape))
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → α) (r : (⟨2, ![N, K]⟩ : Shape).Idx → α) (p : Fin M) (q : Fin N) :
    ∑ k : D.contr.Idx, l (D.lhsIdx (ix2 p q) k) * r (D.rhsIdx (ix2 p q) k) = ∑ k : Fin K, l (ix2 p k) * r (ix2 q k) := by
  obtain ⟨lc, rc, ln, rn, lb, rb, wf⟩ := D
  simp only at h1 h2 h3 h4 h5 h6
  subst h1 h2 h3 h4 h5 h6
  exact sum_mkT wf l r p q

/-- A kernel's product of an [M, K] matrix with the transpose of an [N, K] matrix, into the zero accumulator, at the entry (p, q). -/
theorem matmul_zero_apply {φ₁ φ₂ : FTy}
    (D : DotDims (⟨2, ![M, K]⟩ : Shape) (⟨2, ![N, K]⟩ : Shape) (⟨2, ![M, N]⟩ : Shape))
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal (⟨2, ![M, K]⟩ : Shape) φ₁) (r : FVec Ideal (⟨2, ![N, K]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 q k) : EReal) :=
  (Ideal.matmul_constant_zero_apply D prec l r (ix2 p q)).trans
    (sum_of_transposed (α := EReal) D h1 h2 h3 h4 h5 h6 l r p q)

/-! ## The same under a leading batch axis: [B, M, K] with [B, N, K] -/

/-- Axis 1 is not the batch axis 0. -/
theorem one_not_mem_batch : ¬ (1 : Fin 3) ∈ ([0] : List (Fin 3)) := by decide

/-- The record with the dimension numbers of the batched product with a transposed right operand, at any well-formedness proof. -/
abbrev mkB (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) :=
  ⟨[2], [2], [1], [1], [0], [0], wf⟩

section
variable (wf : DotDims.WF (⟨3, ![B, M, K]⟩ : Shape) (⟨3, ![B, N, K]⟩ : Shape) (⟨3, ![B, M, N]⟩ : Shape) [2] [2] [1] [1] [0] [0])

/-- The left operand's batch coordinate is the output's batch coordinate. -/
theorem lhsB0 (j : (⟨3, ![B, M, N]⟩ : Shape).Idx) (q : (mkB wf).contr.Idx) : ((mkB wf).lhsIdx j q 0).val = (j 0).val := by
  unfold DotDims.lhsIdx
  rw [dif_pos (show (0 : Fin (⟨3, ![B, M, K]⟩ : Shape).rank) ∈ (mkB wf).lhsBatch from List.mem_singleton_self _)]
  rfl

/-- The left operand's row coordinate is the output's row coordinate. -/
theorem lhsB1 (j : (⟨3, ![B, M, N]⟩ : Shape).Idx) (q : (mkB wf).contr.Idx) : ((mkB wf).lhsIdx j q 1).val = (j 1).val := by
  unfold DotDims.lhsIdx
  rw [dif_neg (show ¬(1 : Fin (⟨3, ![B, M, K]⟩ : Shape).rank) ∈ (mkB wf).lhsBatch from one_not_mem_batch),
    dif_pos (show (1 : Fin (⟨3, ![B, M, K]⟩ : Shape).rank) ∈ (mkB wf).lhsNonContracting from List.mem_singleton_self _)]
  rfl

/-- The left operand's last coordinate is the contraction position. -/
theorem lhsB2 (j : (⟨3, ![B, M, N]⟩ : Shape).Idx) (q : (mkB wf).contr.Idx) : ((mkB wf).lhsIdx j q 2).val = (q ⟨0, Nat.one_pos⟩).val :=
  (mkB wf).lhsIdx_val_of_single rfl j q

/-- The right operand's batch coordinate is the output's batch coordinate. -/
theorem rhsB0 (j : (⟨3, ![B, M, N]⟩ : Shape).Idx) (q : (mkB wf).contr.Idx) : ((mkB wf).rhsIdx j q 0).val = (j 0).val := by
  unfold DotDims.rhsIdx
  rw [dif_pos (show (0 : Fin (⟨3, ![B, N, K]⟩ : Shape).rank) ∈ (mkB wf).rhsBatch from List.mem_singleton_self _)]
  rfl

/-- The right operand's row coordinate is the output's column coordinate. -/
theorem rhsB1 (j : (⟨3, ![B, M, N]⟩ : Shape).Idx) (q : (mkB wf).contr.Idx) : ((mkB wf).rhsIdx j q 1).val = (j 2).val := by
  unfold DotDims.rhsIdx
  rw [dif_neg (show ¬(1 : Fin (⟨3, ![B, N, K]⟩ : Shape).rank) ∈ (mkB wf).rhsBatch from one_not_mem_batch),
    dif_pos (show (1 : Fin (⟨3, ![B, N, K]⟩ : Shape).rank) ∈ (mkB wf).rhsNonContracting from List.mem_singleton_self _)]
  rfl

/-- The right operand's last coordinate is the contraction position. -/
theorem rhsB2 (j : (⟨3, ![B, M, N]⟩ : Shape).Idx) (q : (mkB wf).contr.Idx) : ((mkB wf).rhsIdx j q 2).val = (q ⟨0, Nat.one_pos⟩).val :=
  (mkB wf).rhsIdx_val_of_single rfl j q

/-- The contraction sum at the entry (e, p, q): over k, the left entry (e, p, k) times the right entry (e, q, k). -/
theorem sum_mkB {α : Type} [AddCommMonoid α] [Mul α] (l : (⟨3, ![B, M, K]⟩ : Shape).Idx → α) (r : (⟨3, ![B, N, K]⟩ : Shape).Idx → α)
    (e : Fin B) (p : Fin M) (q : Fin N) :
    ∑ k : (mkB wf).contr.Idx, l ((mkB wf).lhsIdx (ix3 e p q) k) * r ((mkB wf).rhsIdx (ix3 e p q) k)
      = ∑ k : Fin K, l (ix3 e p k) * r (ix3 e q k) := by
  rw [← Equiv.sum_comp (contrEquiv1 (mkB wf) K rfl rfl).symm]
  refine Finset.sum_congr rfl fun k _ => ?_
  have hk := contrEquiv1_symm_val (mkB wf) K rfl rfl k
  have el : (mkB wf).lhsIdx (ix3 e p q) ((contrEquiv1 (mkB wf) K rfl rfl).symm k) = ix3 e p k := funext fun a => Fin.ext (by
    match a with
    | ⟨0, _⟩ => exact lhsB0 wf _ _
    | ⟨1, _⟩ => exact lhsB1 wf _ _
    | ⟨2, _⟩ => exact (lhsB2 wf _ _).trans hk)
  have er : (mkB wf).rhsIdx (ix3 e p q) ((contrEquiv1 (mkB wf) K rfl rfl).symm k) = ix3 e q k := funext fun a => Fin.ext (by
    match a with
    | ⟨0, _⟩ => exact rhsB0 wf _ _
    | ⟨1, _⟩ => exact rhsB1 wf _ _
    | ⟨2, _⟩ => exact (rhsB2 wf _ _).trans hk)
  rw [el, er]
end

/-- Every record whose dimension numbers are the batched product's is `mkB` of its own well-formedness proof, so its
    contraction sum is the same. -/
theorem sum_of_batched {α : Type} [AddCommMonoid α] [Mul α]
    (D : DotDims (⟨3, ![B, M, K]⟩ : Shape) (⟨3, ![B, N, K]⟩ : Shape) (⟨3, ![B, M, N]⟩ : Shape))
    (h1 : D.lhsContracting = [2]) (h2 : D.rhsContracting = [2]) (h3 : D.lhsNonContracting = [1])
    (h4 : D.rhsNonContracting = [1]) (h5 : D.lhsBatch = [0]) (h6 : D.rhsBatch = [0])
    (l : (⟨3, ![B, M, K]⟩ : Shape).Idx → α) (r : (⟨3, ![B, N, K]⟩ : Shape).Idx → α) (e : Fin B) (p : Fin M) (q : Fin N) :
    ∑ k : D.contr.Idx, l (D.lhsIdx (ix3 e p q) k) * r (D.rhsIdx (ix3 e p q) k)
      = ∑ k : Fin K, l (ix3 e p k) * r (ix3 e q k) := by
  obtain ⟨lc, rc, ln, rn, lb, rb, wf⟩ := D
  simp only at h1 h2 h3 h4 h5 h6
  subst h1 h2 h3 h4 h5 h6
  exact sum_mkB wf l r e p q

/-- The host's dot_general of [B, M, K] with [B, N, K] over the last axes, batched over the first, at the entry (e, p, q). -/
theorem dotGeneral_batched_apply {φ₁ φ₂ : FTy}
    (D : DotDims (⟨3, ![B, M, K]⟩ : Shape) (⟨3, ![B, N, K]⟩ : Shape) (⟨3, ![B, M, N]⟩ : Shape))
    (h1 : D.lhsContracting = [2]) (h2 : D.rhsContracting = [2]) (h3 : D.lhsNonContracting = [1])
    (h4 : D.rhsNonContracting = [1]) (h5 : D.lhsBatch = [0]) (h6 : D.rhsBatch = [0])
    (prec : Option ContractPrecision) (sched : HostSchedule)
    (l : FVec Ideal (⟨3, ![B, M, K]⟩ : Shape) φ₁) (r : FVec Ideal (⟨3, ![B, N, K]⟩ : Shape) φ₂)
    (e : Fin B) (p : Fin M) (q : Fin N) :
    FloatOps.dotGeneral D prec sched l r (ix3 e p q)
      = ∑ k : Fin K, (l (ix3 e p k) : EReal) * (r (ix3 e q k) : EReal) :=
  (Ideal.dotGeneral_apply D prec sched l r (ix3 e p q)).trans
    (sum_of_batched (α := EReal) D h1 h2 h3 h4 h5 h6 l r e p q)

end Idealize.ShloMosaic.RowDot

end
-- ==== Proof.Spec.lean ====
/-
  The grouped linear map both programs compute between the dispatch and the combine, as one function of
  the capacity buckets, the weights and the bias, entry by entry over the extended reals:
  the entry (e, c, o) of the result is the sum over the input feature k of  buf (e, c, k) · w (e, o, k),
  plus  b (e, o).  (Expert e's bucket rows times the transpose of expert e's weight matrix, plus
  expert e's bias row repeated along the capacity axis.)
-/
import Idealize.ShloMosaic.PureOps.Ideal
import Idealize.ShloMosaic.Lib.ValueIdx

noncomputable section

namespace Cert.Grouped

open Idealize.ShloMosaic Idealize.ShloMosaic.ValueIdx
open scoped BigOperators

/-- The entry (e, c, o): the contraction over the 512 input features, plus the bias. -/
def entry (buf : FVec Ideal (⟨3, ![64, 3072, 512]⟩ : Shape) .f32) (w : FVec Ideal (⟨3, ![64, 512, 512]⟩ : Shape) .f32)
    (b : FVec Ideal (⟨2, ![64, 512]⟩ : Shape) .f32) (e : Fin 64) (c : Fin 3072) (o : Fin 512) : EReal :=
  (∑ k : Fin 512, (buf (ix3 e c k) : EReal) * (w (ix3 e o k) : EReal)) + (b (ix2 e o) : EReal)

/-- The whole [64, 3072, 512] result. -/
def grouped (buf : FVec Ideal (⟨3, ![64, 3072, 512]⟩ : Shape) .f32) (w : FVec Ideal (⟨3, ![64, 512, 512]⟩ : Shape) .f32)
    (b : FVec Ideal (⟨2, ![64, 512]⟩ : Shape) .f32) : FVec Ideal (⟨3, ![64, 3072, 512]⟩ : Shape) .f32 :=
  fun j => entry buf w b (j 0) (j 1) (j 2)

theorem grouped_apply (buf : FVec Ideal (⟨3, ![64, 3072, 512]⟩ : Shape) .f32) (w : FVec Ideal (⟨3, ![64, 512, 512]⟩ : Shape) .f32)
    (b : FVec Ideal (⟨2, ![64, 512]⟩ : Shape) .f32) (e : Fin 64) (c : Fin 3072) (o : Fin 512) :
    grouped buf w b (ix3 e c o) = entry buf w b e c o := rfl

end Cert.Grouped

end
-- ==== Proof.RefLinear.lean ====
/-
  The reference's linear map between the dispatch and the combine, read as the specification.

  The reference computes the batched contraction of the capacity buckets [64, 3072, 512] with the weights
  [64, 512, 512] over their last axes (batch axis 0 on both sides), makes the bias [64, 512] a [64, 1, 512]
  array and repeats it along the capacity axis to [64, 3072, 512], and adds the two. At the entry (e, c, o):

  * the contraction is the sum over the input feature k of  buf (e, c, k) · w (e, o, k);
  * the first broadcast puts the bias's axes 0 and 1 on the result's axes 0 and 2, so its entry (e, u, o) is
    b (e, o); the second keeps the three axes in place and reads coordinate 0 on the unit axis, so its entry
    (e, c, o) is the first broadcast's entry (e, 0, o): together b (e, o), whatever c is;
  * the sum of arrays is entrywise.

  So the entry (e, c, o) is  (∑ k, buf (e, c, k) · w (e, o, k)) + b (e, o), the specification's entry.
-/
import proofs.«178380_j84868553769176_1_alg».proof.Proof.LibBatchedRowDot
import proofs.«178380_j84868553769176_1_alg».proof.Proof.Spec
import proofs.«178380_j84868553769176_1_alg».proof.Proof.Gen.ReferenceIdeal
import Idealize.ShloMosaic.Lib.Pipeline.Value

noncomputable section

namespace Cert.ReferenceIdeal.Linear

open Cert.ReferenceIdeal Cert.ReferenceIdeal.Gen Idealize.ShloMosaic Idealize.ShloMosaic.ValueIdx
open scoped BigOperators

/-- The bias made a [64, 1, 512] array: its entry (e, u, o) is b (e, o). Neither of the bias's axes is a unit axis,
    so each reads the result's coordinate on the axis it is sent to: axis 0 to axis 0, axis 1 to axis 2. -/
theorem bias_unit_apply (b : FVec Ideal S64x512 .f32) (e : Fin 64) (u : Fin 1) (o : Fin 512) :
    broadcastInDim S64x1x512 ![0, 2] bcast_S64x512_S64x1x512_0_2 b (ix3 e u o) = b (ix2 e o) := by
  refine broadcastInDim_apply _ _ b (ix3 e u o) (ix2 e o) fun a => ?_
  match a with
  | ⟨0, _⟩ => rfl
  | ⟨1, _⟩ => rfl

/-- A [64, 1, 512] array repeated along the capacity axis: its entry (e, c, o) is the operand's entry (e, 0, o).
    Axes 0 and 2 read the result's coordinates; the unit axis 1 reads coordinate 0. -/
theorem bias_rows_apply (v : FVec Ideal S64x1x512 .f32) (e : Fin 64) (c : Fin 3072) (o : Fin 512) :
    broadcastInDim S64x3072x512 ![0, 1, 2] bcast_S64x1x512_S64x3072x512_0_1_2 v (ix3 e c o)
      = v (ix3 e (0 : Fin 1) o) := by
  refine broadcastInDim_apply _ _ v (ix3 e c o) (ix3 e (0 : Fin 1) o) fun a => ?_
  match a with
  | ⟨0, _⟩ => rfl
  | ⟨1, _⟩ => rfl
  | ⟨2, _⟩ => rfl

/-- The reference's batched contraction plus its twice-broadcast bias is the grouped linear map of the specification. -/
theorem linear_eq (buf : FVec Ideal S64x3072x512 .f32) (w : FVec Ideal S64x512x512 .f32) (b : FVec Ideal S64x512 .f32) :
    addf (Host.dotGeneral (F := Ideal) dot_S64x3072x512_S64x512x512_S64x3072x512_2_2_1_1_0_0 none buf w)
        (broadcastInDim S64x3072x512 ![0, 1, 2] bcast_S64x1x512_S64x3072x512_0_1_2
          (broadcastInDim S64x1x512 ![0, 2] bcast_S64x512_S64x1x512_0_2 b))
      = Cert.Grouped.grouped buf w b := by
  funext j
  obtain ⟨e, c, o, rfl⟩ : ∃ (e : Fin 64) (c : Fin 3072) (o : Fin 512), j = ix3 e c o := ⟨j 0, j 1, j 2, eq_ix3 j⟩
  rw [Cert.Grouped.grouped_apply]
  unfold Cert.Grouped.entry
  -- the sum of the two arrays at (e, c, o) is the sum of their entries there
  refine (addf_apply _ _ _).trans (congrArg₂ (· + ·) ?_ ?_)
  · -- the contraction's entry: over k, buf (e, c, k) · w (e, o, k)
    exact RowDot.dotGeneral_batched_apply _ rfl rfl rfl rfl rfl rfl none _ buf w e c o
  · -- the bias's entry: (e, c, o) of the second broadcast is (e, 0, o) of the first, which is b (e, o)
    exact (bias_rows_apply _ e c o).trans (bias_unit_apply b e 0 o)

end Cert.ReferenceIdeal.Linear

end
-- ==== Proof.Combine.lean ====
/-
  The combine step both programs end with, as ONE function of the [64, 3072, 512] result of the linear map,
  the bucket slot of each sorted token and the sort order: the result rows laid out as [196608, 512] with a
  spare zero row appended, row `slot t` gathered for each sorted token t (a negative slot wrapped by 196609),
  and the gathered rows scattered over zeros to the rows `order t` (a negative index wrapped by 131072).
  The kernel program applies it to its pallas_call's output array, the reference to its own linear map;
  neither side is ever opened: the two results are equal as soon as the three arguments are.
-/
import proofs.«178380_j84868553769176_1_alg».proof.Proof.Gen.KernelIdeal.Frame
import proofs.«178380_j84868553769176_1_alg».proof.Proof.RefOps
import Idealize.ShloMosaic.Lib.StableHlo.Run

noncomputable section

namespace Cert.KernelIdeal.Combine

open Cert.KernelIdeal Cert.KernelIdeal.Gen Idealize.ShloMosaic Idealize.ShloMosaic.TcCoe Idealize.SL.Sem
open Idealize.ShloMosaic.StableHlo

variable {F : FTy → Type} [FloatOps F]

/-- The combine: gather the result rows by slot (the spare zero row for a token over capacity), scatter them
    back to token order. -/
def combine (y : (⟨S64x3072x512, .f32⟩ : BufTy).Contents (Elt F)) (slot order : (⟨S131072, .i32⟩ : BufTy).Contents (Elt F)) :
    (⟨S131072x512, .f32⟩ : BufTy).Contents (Elt F) :=
  Host.scatter scatter_S131072x512_S131072x1_S131072x512_1_0_0_1 (fun _ b => b)
    (broadcastInDim S131072x512 ![] bcast_S_S131072x512 (constant (F := F) S_ .f32 0x00000000#32))
    (broadcastInDim S131072x1 ![0] bcast_S131072_S131072x1_0
      (select (cmpi .slt order (broadcastInDim S131072 ![] bcast_S_S131072 (constantI S_ 32 0#32)))
        (addi order (broadcastInDim S131072 ![] bcast_S_S131072 (constantI S_ 32 131072#32))) order))
    (Host.gather gather_S196609x512_S131072x1_S131072x512_1_0_n_n_0_1_1512
      (concatenate S196609x512 0
        [⟨S196608x512, shapeCast S196608x512 y shapeCasts_S64x3072x512_S196608x512⟩,
         ⟨S1x512, broadcastInDim S1x512 ![] bcast_S_S1x512 (constant (F := F) S_ .f32 0x00000000#32)⟩]
        concatenates_S196608x512_S1x512_S196609x512_d0)
      (broadcastInDim S131072x1 ![0] bcast_S131072_S131072x1_0
        (select (cmpi .slt slot (broadcastInDim S131072 ![] bcast_S_S131072 (constantI S_ 32 0#32)))
          (addi slot (broadcastInDim S131072 ![] bcast_S_S131072 (constantI S_ 32 196609#32))) slot)))

/-- The kernel program's lines after its region are the combine of the region's output array, the slots and the
    order, whatever the buffers hold when they start. -/
theorem tail_eq (W : Valuation τ sig (Elt F)) :
    after hostOps1 W (main_v65 : DevRef τ sig)
      = combine (W (main_v47 : DevRef τ sig)) (W (main_v28 : DevRef τ sig)) (W (main_v0 : DevRef τ sig)) := by
  simp only [hostOps1]
  after_results_simp
  rfl

end Cert.KernelIdeal.Combine

namespace Cert.ReferenceIdeal.Combine

open Cert.ReferenceIdeal Cert.ReferenceIdeal.Gen Cert.ReferenceIdeal.Ops Idealize.ShloMosaic Idealize.ShloMosaic.TcCoe Idealize.SL.Sem
open Idealize.ShloMosaic.StableHlo

variable {F : FTy → Type} [FloatOps F]

/-- The reference's lines from its linear map on are the SAME combine, applied to the batched contraction of the
    buckets with the weights plus the bias repeated along the capacity axis, whatever the buffers hold when they start. -/
theorem post_eq (W : Valuation τ sig (Elt F)) :
    after postOps W (main_v67 : DevRef τ sig)
      = Cert.KernelIdeal.Combine.combine
          (addf (Host.dotGeneral dot_S64x3072x512_S64x512x512_S64x3072x512_2_2_1_1_0_0 none
              (W (main_v45 : DevRef τ sig)) (W (main_arg1 : DevRef τ sig)))
            (broadcastInDim S64x3072x512 ![0, 1, 2] bcast_S64x1x512_S64x3072x512_0_1_2
              (broadcastInDim S64x1x512 ![0, 2] bcast_S64x512_S64x1x512_0_2 (W (main_arg2 : DevRef τ sig)))))
          (W (main_v28 : DevRef τ sig)) (W (main_v0 : DevRef τ sig)) := by
  simp only [postOps, linearOps, combineOps, List.cons_append, List.nil_append]
  after_results_simp
  rfl

end Cert.ReferenceIdeal.Combine

end
-- ==== Proof.Routing.lean ====
/-
  The routing and the dispatch, which the two programs compute by the same host operations: from the expert ids
  alone the sort order and each sorted token's bucket slot, and from those and the token rows the capacity buckets.
  Neither program's operations are opened: run from memories that agree on the token rows and the expert ids, the two
  programs reach the linear map with the same order, the same slots and the same buckets.
  The dispatch is stated once, as a function of the token rows, the slots and the order: the rows gathered in sort
  order (a negative index wrapped by 131072) and scattered over zeros to the 196609 bucket rows at their slots (a
  negative slot wrapped by 196609), the spare row dropped, the rest read as [64, 3072, 512].
-/
import proofs.«178380_j84868553769176_1_alg».proof.Proof.Gen.KernelIdeal.Frame
import proofs.«178380_j84868553769176_1_alg».proof.Proof.RefOps
import Idealize.ShloMosaic.Lib.StableHlo.Run

noncomputable section

namespace Cert.Routing

open Idealize.ShloMosaic Idealize.ShloMosaic.TcCoe Idealize.SL.Sem Idealize.ShloMosaic.StableHlo

variable {F : FTy → Type} [FloatOps F]

/-! ## The two programs' operations before the linear map, cut after the routing -/

/-- The kernel program's routing: everything up to the slots. -/
abbrev routingK : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4]
/-- The kernel program's operations before its region. -/
abbrev preK : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5]
/-- The reference's routing. -/
abbrev routingR : List (HloOp Cert.ReferenceIdeal.τ Cert.ReferenceIdeal.sig (Elt F)) :=
  List.flatten [Cert.ReferenceIdeal.Ops.sortOps, Cert.ReferenceIdeal.Ops.countOps, Cert.ReferenceIdeal.Ops.cumsumOps, Cert.ReferenceIdeal.Ops.rankOps, Cert.ReferenceIdeal.Ops.whereOps]

theorem preK_eq : (preK : List (HloOp Cert.KernelIdeal.τ Cert.KernelIdeal.sig (Elt F))) = routingK ++ Cert.KernelIdeal.Gen.hostOps0_5 := by
  simp only [preK, routingK, List.flatten_cons, List.flatten_nil, List.append_nil, List.append_assoc]
theorem preR_eq : (Cert.ReferenceIdeal.Ops.preOps : List (HloOp Cert.ReferenceIdeal.τ Cert.ReferenceIdeal.sig (Elt F))) = routingR ++ Cert.ReferenceIdeal.Ops.dispatchOps := by
  simp only [Cert.ReferenceIdeal.Ops.preOps, routingR, List.flatten_cons, List.flatten_nil, List.append_nil, List.append_assoc]

/-! ## The routing reads the expert ids only -/

section
variable (VK : Valuation Cert.KernelIdeal.τ Cert.KernelIdeal.sig (Elt F)) (VR : Valuation Cert.ReferenceIdeal.τ Cert.ReferenceIdeal.sig (Elt F))

/-- The sort order after the two routings, from the same expert ids. -/
theorem order_routing_eq (h3 : VR (Cert.ReferenceIdeal.main_arg3 : DevRef _ _) = VK (Cert.KernelIdeal.main_arg3 : DevRef _ _)) :
    after routingR VR (Cert.ReferenceIdeal.main_v0 : DevRef _ _) = after routingK VK (Cert.KernelIdeal.main_v0 : DevRef _ _) := by
  simp only [routingK, routingR, Cert.ReferenceIdeal.Ops.sortOps, Cert.ReferenceIdeal.Ops.countOps, Cert.ReferenceIdeal.Ops.cumsumOps, Cert.ReferenceIdeal.Ops.rankOps, Cert.ReferenceIdeal.Ops.whereOps,
    Cert.KernelIdeal.Gen.hostOps0, Cert.KernelIdeal.Gen.hostOps0_1, Cert.KernelIdeal.Gen.hostOps0_2, Cert.KernelIdeal.Gen.hostOps0_3, Cert.KernelIdeal.Gen.hostOps0_4,
    List.flatten_cons, List.flatten_nil, List.append_nil, List.cons_append, List.nil_append]
  after_results_simp
  simp only [TRef.ofBuf, TRef.toBuf, cast_eq]
  rw [h3]
  rfl

/-- The slots after the two routings, from the same expert ids. -/
theorem slot_routing_eq (h3 : VR (Cert.ReferenceIdeal.main_arg3 : DevRef _ _) = VK (Cert.KernelIdeal.main_arg3 : DevRef _ _)) :
    after routingR VR (Cert.ReferenceIdeal.main_v28 : DevRef _ _) = after routingK VK (Cert.KernelIdeal.main_v28 : DevRef _ _) := by
  simp only [routingK, routingR, Cert.ReferenceIdeal.Ops.sortOps, Cert.ReferenceIdeal.Ops.countOps, Cert.ReferenceIdeal.Ops.cumsumOps, Cert.ReferenceIdeal.Ops.rankOps, Cert.ReferenceIdeal.Ops.whereOps,
    Cert.KernelIdeal.Gen.hostOps0, Cert.KernelIdeal.Gen.hostOps0_1, Cert.KernelIdeal.Gen.hostOps0_2, Cert.KernelIdeal.Gen.hostOps0_3, Cert.KernelIdeal.Gen.hostOps0_4,
    List.flatten_cons, List.flatten_nil, List.append_nil, List.cons_append, List.nil_append]
  after_results_simp
  simp only [TRef.ofBuf, TRef.toBuf, cast_eq]
  rw [h3]
  rfl

/-- The routing writes no argument: the token rows pass through it. -/
theorem rows_routingK : after routingK VK (Cert.KernelIdeal.main_arg0 : DevRef _ _) = VK (Cert.KernelIdeal.main_arg0 : DevRef _ _) := by
  simp only [routingK, Cert.KernelIdeal.Gen.hostOps0, Cert.KernelIdeal.Gen.hostOps0_1, Cert.KernelIdeal.Gen.hostOps0_2, Cert.KernelIdeal.Gen.hostOps0_3, Cert.KernelIdeal.Gen.hostOps0_4,
    List.flatten_cons, List.flatten_nil, List.append_nil, List.cons_append, List.nil_append]
  after_results_simp
theorem rows_routingR : after routingR VR (Cert.ReferenceIdeal.main_arg0 : DevRef _ _) = VR (Cert.ReferenceIdeal.main_arg0 : DevRef _ _) := by
  simp only [routingR, Cert.ReferenceIdeal.Ops.sortOps, Cert.ReferenceIdeal.Ops.countOps, Cert.ReferenceIdeal.Ops.cumsumOps, Cert.ReferenceIdeal.Ops.rankOps, Cert.ReferenceIdeal.Ops.whereOps,
    List.flatten_cons, List.flatten_nil, List.append_nil, List.cons_append, List.nil_append]
  after_results_simp
end

/-! ## The dispatch -/

section
open Cert.KernelIdeal Cert.KernelIdeal.Gen

/-- The capacity buckets from the token rows, the slots and the order. -/
def dispatch (x : (⟨S131072x512, .f32⟩ : BufTy).Contents (Elt F)) (slot order : (⟨S131072, .i32⟩ : BufTy).Contents (Elt F)) :
    (⟨S64x3072x512, .f32⟩ : BufTy).Contents (Elt F) :=
  shapeCast S64x3072x512
    (extractStridedSlice S196608x512 ![0, 0]
      (Host.scatter scatter_S196609x512_S131072x1_S131072x512_1_0_0_1 (fun _ b => b)
        (broadcastInDim S196609x512 ![] bcast_S_S196609x512 (constant (F := F) S_ .f32 0x00000000#32))
        (broadcastInDim S131072x1 ![0] bcast_S131072_S131072x1_0
          (select (cmpi .slt slot (broadcastInDim S131072 ![] bcast_S_S131072 (constantI S_ 32 0#32)))
            (addi slot (broadcastInDim S131072 ![] bcast_S_S131072 (constantI S_ 32 196609#32))) slot))
        (Host.gather gather_S131072x512_S131072x1_S131072x512_1_0_n_n_0_1_1512 x
          (broadcastInDim S131072x1 ![0] bcast_S131072_S131072x1_0
            (select (cmpi .slt order (broadcastInDim S131072 ![] bcast_S_S131072 (constantI S_ 32 0#32)))
              (addi order (broadcastInDim S131072 ![] bcast_S_S131072 (constantI S_ 32 131072#32))) order))))
      slices_S196609x512_S196608x512_0_0)
    shapeCasts_S196608x512_S64x3072x512

/-- The kernel program's last stretch before its region is the dispatch, and leaves the slots and the order alone. -/
theorem dispatchK_eq (W : Valuation τ sig (Elt F)) :
    after hostOps0_5 W (main_v45 : DevRef τ sig)
      = dispatch (W (main_arg0 : DevRef τ sig)) (W (main_v28 : DevRef τ sig)) (W (main_v0 : DevRef τ sig)) := by
  simp only [hostOps0_5]
  after_results_simp
  rfl
theorem slot_dispatchK (W : Valuation τ sig (Elt F)) : after hostOps0_5 W (main_v28 : DevRef τ sig) = W (main_v28 : DevRef τ sig) := by
  simp only [hostOps0_5]
  after_results_simp
theorem order_dispatchK (W : Valuation τ sig (Elt F)) : after hostOps0_5 W (main_v0 : DevRef τ sig) = W (main_v0 : DevRef τ sig) := by
  simp only [hostOps0_5]
  after_results_simp
end

section
open Cert.ReferenceIdeal Cert.ReferenceIdeal.Gen Cert.ReferenceIdeal.Ops

/-- The reference's is the same dispatch. -/
theorem dispatchR_eq (W : Valuation τ sig (Elt F)) :
    after dispatchOps W (main_v45 : DevRef τ sig)
      = dispatch (W (main_arg0 : DevRef τ sig)) (W (main_v28 : DevRef τ sig)) (W (main_v0 : DevRef τ sig)) := by
  simp only [dispatchOps]
  after_results_simp
  rfl
theorem slot_dispatchR (W : Valuation τ sig (Elt F)) : after dispatchOps W (main_v28 : DevRef τ sig) = W (main_v28 : DevRef τ sig) := by
  simp only [dispatchOps]
  after_results_simp
theorem order_dispatchR (W : Valuation τ sig (Elt F)) : after dispatchOps W (main_v0 : DevRef τ sig) = W (main_v0 : DevRef τ sig) := by
  simp only [dispatchOps]
  after_results_simp
end

/-! ## Before the linear map the two programs agree -/

section
variable (VK : Valuation Cert.KernelIdeal.τ Cert.KernelIdeal.sig (Elt F)) (VR : Valuation Cert.ReferenceIdeal.τ Cert.ReferenceIdeal.sig (Elt F))
  (h0 : VR (Cert.ReferenceIdeal.main_arg0 : DevRef _ _) = VK (Cert.KernelIdeal.main_arg0 : DevRef _ _))
  (h3 : VR (Cert.ReferenceIdeal.main_arg3 : DevRef _ _) = VK (Cert.KernelIdeal.main_arg3 : DevRef _ _))
include h3

theorem order_eq : after Cert.ReferenceIdeal.Ops.preOps VR (Cert.ReferenceIdeal.main_v0 : DevRef _ _) = after preK VK (Cert.KernelIdeal.main_v0 : DevRef _ _) := by
  rw [preR_eq, preK_eq, after_append, after_append, order_dispatchR, order_dispatchK]
  exact order_routing_eq VK VR h3

theorem slot_eq : after Cert.ReferenceIdeal.Ops.preOps VR (Cert.ReferenceIdeal.main_v28 : DevRef _ _) = after preK VK (Cert.KernelIdeal.main_v28 : DevRef _ _) := by
  rw [preR_eq, preK_eq, after_append, after_append, slot_dispatchR, slot_dispatchK]
  exact slot_routing_eq VK VR h3

include h0
theorem buckets_eq : after Cert.ReferenceIdeal.Ops.preOps VR (Cert.ReferenceIdeal.main_v45 : DevRef _ _) = after preK VK (Cert.KernelIdeal.main_v45 : DevRef _ _) := by
  rw [preR_eq, preK_eq, after_append, after_append, dispatchR_eq, dispatchK_eq,
    rows_routingR, rows_routingK, h0, order_routing_eq VK VR h3, slot_routing_eq VK VR h3]
end

end Cert.Routing

end
-- ==== Proof.KernelPayload.lean ====
/-
  What the kernel body stores at one grid point, read entry by entry over the extended reals.

  The body loads its three blocks whole: a [1, 1024, 512] block of bucket rows, the [1, 512, 512] weight
  matrix of one expert and that expert's [1, 1, 512] bias row. It drops the unit axes, multiplies the
  1024 x 512 rows by the TRANSPOSE of the 512 x 512 weights (rounding the operands first, which is the
  identity over the extended reals), adds the bias row to every one of the 1024 rows, and puts the unit
  axis back.  So the entry (0, r, o) of what it stores is
      sum over k < 512 of  rows (0, r, k) * weights (0, o, k)   +   bias (0, 0, o).
-/
import proofs.«178380_j84868553769176_1_alg».proof.Proof.Gen.KernelIdeal.Skeleton
import proofs.«178380_j84868553769176_1_alg».proof.Proof.LibBatchedRowDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx
open scoped BigOperators

/-- A [1, 1, 512] array with both unit axes dropped reads, at o, the operand at (0, 0, o): the two
    row-major positions are the same number. -/
theorem dropTwoUnits_apply (x : Vec Ideal S1x1x512 .f32) (o : Fin 512) :
    shapeCast S512 x shapeCasts_S1x1x512_S512 (ix1 o) = x (ix3 (0 : Fin 1) (0 : Fin 1) o) :=
  shapeCast_apply x shapeCasts_S1x1x512_S512 (ix1 o) (ix3 (0 : Fin 1) (0 : Fin 1) o) (by
    rw [Shape.rowMajor_val_three, Shape.rowMajor_val_one]
    show (0 * 1 + 0) * 512 + o.val = o.val
    omega)

/-- The bias row as the body adds it: the [1, 1, 512] block flattened to [512], given a unit row axis
    and repeated over the 1024 rows, reads at (r, o) the block's entry (0, 0, o), whatever the row r. -/
theorem biasRows_apply (x2 : Vec Ideal S1x1x512 .f32) (r : Fin 1024) (o : Fin 512) :
    broadcastTo S1024x512 (shapeCast S1x512 (shapeCast S512 x2 shapeCasts_S1x1x512_S512) shapeCasts_S512_S1x512)
        broadcasts_S1x512_S1024x512 (ix2 r o)
      = x2 (ix3 (0 : Fin 1) (0 : Fin 1) o) :=
  (broadcastTo_1b_ab_apply _ broadcasts_S1x512_S1024x512 r o).trans
    ((shapeCast_a_1a_apply _ shapeCasts_S512_S1x512 (0 : Fin 1) o).trans (dropTwoUnits_apply x2 o))

/-- THE STORED BLOCK AT (0, r, o): row r of the bucket block against row o of the weight block (the
    weights enter transposed), summed over the 512 input features, plus the bias entry o. -/
theorem pay_apply (x0 : Vec Ideal S1x1024x512 .f32) (x1 : Vec Ideal S1x512x512 .f32) (x2 : Vec Ideal S1x1x512 .f32) (r : Fin 1024) (o : Fin 512) :
    k0_pay1 (F := Ideal) x0 x1 x2 (ix3 (0 : Fin 1) r o)
      = (∑ k : Fin 512, (x0 (ix3 (0 : Fin 1) r k) : EReal) * (x1 (ix3 (0 : Fin 1) o k) : EReal)) + (x2 (ix3 (0 : Fin 1) (0 : Fin 1) o) : EReal) := by
  unfold k0_pay1
  -- the unit axis put back: the entry (0, r, o) is the [1024, 512] sum's entry (r, o)
  refine (shapeCast_ab_1ab_apply _ shapeCasts_S1024x512_S1x1024x512 (0 : Fin 1) r o).trans ?_
  refine (addf_apply _ _ (ix2 r o)).trans ?_
  refine congrArg₂ (· + ·) ?_ (biasRows_apply x2 r o)
  -- the product into the zero accumulator, entry (r, o): the contraction over the shared last axis
  refine (RowDot.matmul_zero_apply _ rfl rfl rfl rfl rfl rfl none _ _ r o).trans ?_
  refine Finset.sum_congr rfl fun k _ => ?_
  refine congrArg₂ (· * ·) ?_ ?_
  · exact (truncf_apply _ bitsLt_bf16_f32 (ix2 r k)).trans (shapeCast_1ab_ab_apply x0 shapeCasts_S1x1024x512_S1024x512 r k)
  · exact (truncf_apply _ bitsLt_bf16_f32 (ix2 o k)).trans (shapeCast_1ab_ab_apply x1 shapeCasts_S1x512x512_S512x512 o k)

end Cert.KernelIdeal.Blocks

end
-- ==== Proof.KernelBlocks.lean ====
/-
  From what one grid point writes to the whole output array.

  The grid has 64 x 3 points; the point (e, c) works on expert e and on the c-th third of its 3072
  capacity rows.  Its bucket block is rows 1024 c .. 1024 c + 1023 of expert e's buckets, its weight
  block is expert e's whole 512 x 512 matrix, its bias block is expert e's bias row (the [64, 512] bias
  given a unit middle axis before the region), and the block it writes back is rows
  1024 c .. 1024 c + 1023 of expert e's output.  A block's array coordinate on an axis is always
  (block index) x (block size) + (coordinate inside the block).

  So the entry (0, r, o) the body stores at the point (e, c) is the grouped map's entry
  (e, 1024 c + r, o) of the arrays the region finds, and since every output row (e, c') lies in the block
  of exactly the point (e, c' / 1024), the 192 write-backs leave the whole array at the grouped map.
-/
import proofs.«178380_j84868553769176_1_alg».proof.Proof.Gen.KernelIdeal.Frame
import proofs.«178380_j84868553769176_1_alg».proof.Proof.Spec
import proofs.«178380_j84868553769176_1_alg».proof.Proof.KernelPayload
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic
import Idealize.ShloMosaic.PureOps.Ideal.Laws

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)
open scoped BigOperators

variable (m : (ℓ : Loc nD τ sig) → Buf (Elt Ideal) ℓ)
/-- The zero offsets of a whole-buffer load or store, however spelt. -/
theorem hz : (![0, 0, 0] : Fin 3 → Nat) = fun _ => 0 := funext fun a => by fin_cases a <;> rfl

/-! ## Which block each window holds at a point -/

/-- The block indices, decided once over the 192 points: at every point the bucket window sits at the
    output window's block (e, c, 0), the weight and the bias windows at (e, 0, 0); e < 64 and c < 3. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 63
    ∧ win0_3.index t (1 : Fin 3) ≤ 2
    ∧ win0_3.index t (2 : Fin 3) = 0 :=
  (by decide +kernel : ∀ t : Fin grid0.N, _)

/-- Every output block (e, c, 0) is some point's. -/
theorem idx_onto : ∀ (q0 : Fin 64) (q1 : Fin 3), ∃ t : Fin cfg0.N, win0_3.index t = ![q0.val, q1.val, 0] :=
  (by decide +kernel : ∀ (q0 : Fin 64) (q1 : Fin 3), ∃ t : Fin grid0.N, win0_3.index t = ![q0.val, q1.val, 0])

/-! ## The bias as the region finds it -/

set_option maxHeartbeats 400000 in
/-- The last host operation before the region gives the [64, 512] bias a unit middle axis, and nothing
    before it writes the bias: the region finds the launched bias, reshaped. -/
theorem V_bias (c : Dev nD) :
    (V m c main_v46 : S64x1x512.Idx → EReal)
      = shapeCast S64x1x512 (m ((c : Thread nD τ).loc main_arg2)) shapeCasts_S64x512_S64x1x512 := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results_simp
  rfl

/-- The reshaped bias at (e, 0, o) is the bias at (e, o): the same row-major position. -/
theorem V_bias_apply (c : Dev nD) (e : Fin 64) (o : Fin 512) :
    (V m c main_v46 : S64x1x512.Idx → EReal) (ix3 e (0 : Fin 1) o)
      = (m ((c : Thread nD τ).loc main_arg2) : Vec Ideal S64x512 .f32) (ix2 e o) := by
  rw [V_bias m c]
  exact shapeCast_apply _ shapeCasts_S64x512_S64x1x512 (ix3 e (0 : Fin 1) o) (ix2 e o) (by
    rw [Shape.rowMajor_val_three, Shape.rowMajor_val_two]
    show e.val * 512 + o.val = (e.val * 1 + 0) * 512 + o.val
    omega)

/-! ## Each input block, read off its array

Each read is stated for ANY contents of the window's array: only the block's place in the array matters. -/

/-- The bucket window's block at the point (e, c), read off any [64, 3072, 512] array: its entry
    (0, r, k) is the array's entry (e, 1024 c + r, k). -/
theorem read_bucket_block (A : Vec Ideal S64x3072x512 .f32) (t : Fin cfg0.N) (r : Fin 1024) (k : Fin 512)
    (e : Fin 64) (c' : Fin 3072)
    (he : e.val = win0_3.index t (0 : Fin 3)) (hc : c'.val = win0_3.index t (1 : Fin 3) * 1024 + r.val) :
    (((cfg0.win 0).blk t).view.read (Elt Ideal) A : Vec Ideal S1x1024x512 .f32) (ix3 (0 : Fin 1) r k)
      = A (ix3 e c' k) := by
  obtain ⟨e0, e1, e2, -⟩ := idx_facts t
  show A (((cfg0.win 0).blk t).view.emb (ix3 (0 : Fin 1) r k)) = A (ix3 e c' k)
  refine congrArg A (funext fun a => Fin.ext ?_)
  match a with
  | ⟨0, _⟩ => show win0_0.index t (0 : Fin 3) * 1 + 1 * 0 = e.val; omega
  | ⟨1, _⟩ => show win0_0.index t (1 : Fin 3) * 1024 + 1 * r.val = c'.val; omega
  | ⟨2, _⟩ => show win0_0.index t (2 : Fin 3) * 512 + 1 * k.val = k.val; omega

/-- The weight window's block at the point (e, c), read off any [64, 512, 512] array: its entry
    (0, o, k) is the array's entry (e, o, k). -/
theorem read_weight_block (W : Vec Ideal S64x512x512 .f32) (t : Fin cfg0.N) (o : Fin 512) (k : Fin 512) (e : Fin 64)
    (he : e.val = win0_3.index t (0 : Fin 3)) :
    (((cfg0.win 1).blk t).view.read (Elt Ideal) W : Vec Ideal S1x512x512 .f32) (ix3 (0 : Fin 1) o k)
      = W (ix3 e o k) := by
  obtain ⟨-, -, -, e3, e4, e5, -⟩ := idx_facts t
  show W (((cfg0.win 1).blk t).view.emb (ix3 (0 : Fin 1) o k)) = W (ix3 e o k)
  refine congrArg W (funext fun a => Fin.ext ?_)
  match a with
  | ⟨0, _⟩ => show win0_1.index t (0 : Fin 3) * 1 + 1 * 0 = e.val; omega
  | ⟨1, _⟩ => show win0_1.index t (1 : Fin 3) * 512 + 1 * o.val = o.val; omega
  | ⟨2, _⟩ => show win0_1.index t (2 : Fin 3) * 512 + 1 * k.val = k.val; omega

/-- The bias window's block at the point (e, c), read off any [64, 1, 512] array: its entry
    (0, 0, o) is the array's entry (e, 0, o). -/
theorem read_bias_block (B : Vec Ideal S64x1x512 .f32) (t : Fin cfg0.N) (o : Fin 512) (e : Fin 64)
    (he : e.val = win0_3.index t (0 : Fin 3)) :
    (((cfg0.win 2).blk t).view.read (Elt Ideal) B : Vec Ideal S1x1x512 .f32) (ix3 (0 : Fin 1) (0 : Fin 1) o)
      = B (ix3 e (0 : Fin 1) o) := by
  obtain ⟨-, -, -, -, -, -, e6, e7, e8, -⟩ := idx_facts t
  show B (((cfg0.win 2).blk t).view.emb (ix3 (0 : Fin 1) (0 : Fin 1) o)) = B (ix3 e (0 : Fin 1) o)
  refine congrArg B (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 512 + 1 * o.val = o.val; omega

/-- The bucket block the body loads at the point (e, c): rows 1024 c .. 1024 c + 1023 of expert e's
    buckets as the region finds them. -/
theorem bucket_block (c : Dev nD) (t : Fin cfg0.N) (r : Fin 1024) (k : Fin 512) (e : Fin 64) (c' : Fin 3072)
    (he : e.val = win0_3.index t (0 : Fin 3)) (hc : c'.val = win0_3.index t (1 : Fin 3) * 1024 + r.val) :
    (iblk m c 0 t : Vec Ideal S1x1024x512 .f32) (ix3 (0 : Fin 1) r k)
      = (V m c main_v45 : Vec Ideal S64x3072x512 .f32) (ix3 e c' k) := by
  unfold Gen.iblk
  exact read_bucket_block (V m c main_v45) t r k e c' he hc

/-- The weight block the body loads there: expert e's launched weight matrix. -/
theorem weight_block (c : Dev nD) (t : Fin cfg0.N) (o : Fin 512) (k : Fin 512) (e : Fin 64)
    (he : e.val = win0_3.index t (0 : Fin 3)) :
    (iblk m c 1 t : Vec Ideal S1x512x512 .f32) (ix3 (0 : Fin 1) o k)
      = (m ((c : Thread nD τ).loc main_arg1) : Vec Ideal S64x512x512 .f32) (ix3 e o k) := by
  unfold Gen.iblk
  refine (read_weight_block (V m c main_arg1) t o k e he).trans ?_
  exact congrFun (V_main_arg1 m c) (ix3 e o k)

/-- The bias block the body loads there: expert e's launched bias row. -/
theorem bias_block (c : Dev nD) (t : Fin cfg0.N) (o : Fin 512) (e : Fin 64)
    (he : e.val = win0_3.index t (0 : Fin 3)) :
    (iblk m c 2 t : Vec Ideal S1x1x512 .f32) (ix3 (0 : Fin 1) (0 : Fin 1) o)
      = (m ((c : Thread nD τ).loc main_arg2) : Vec Ideal S64x512 .f32) (ix2 e o) := by
  unfold Gen.iblk
  refine (read_bias_block (V m c main_v46) t o e he).trans ?_
  exact V_bias_apply m c e o

/-! ## What a point writes back -/

/-- The grouped map at an index whose coordinates are known by value. -/
theorem grouped_at (A : FVec Ideal S64x3072x512 .f32) (W : FVec Ideal S64x512x512 .f32) (B : FVec Ideal S64x512 .f32)
    (i : S64x3072x512.Idx) (e : Fin 64) (c' : Fin 3072) (o : Fin 512)
    (h0 : (i 0).val = e.val) (h1 : (i 1).val = c'.val) (h2 : (i 2).val = o.val) :
    Cert.Grouped.grouped A W B i = Cert.Grouped.entry A W B e c' o := by
  have hi : i = ix3 e c' o := funext fun a => Fin.ext (by
    match a with
    | ⟨0, _⟩ => exact h0
    | ⟨1, _⟩ => exact h1
    | ⟨2, _⟩ => exact h2)
  rw [hi]
  rfl

/-- The entry (0, r, o) the body stores at the point (e, c) is the grouped map's entry (e, 1024 c + r, o):
    the place in the output array where the write-back puts it. -/
theorem stored_entry (c : Dev nD) (t : Fin cfg0.N) (r : Fin 1024) (o : Fin 512) :
    k0_pay1 (F := Ideal) (iblk m c 0 t) (iblk m c 1 t) (iblk m c 2 t) (ix3 (0 : Fin 1) r o)
      = Cert.Grouped.grouped (V m c main_v45) (m ((c : Thread nD τ).loc main_arg1)) (m ((c : Thread nD τ).loc main_arg2))
          (((cfg0.win 3).blk t).view.emb (ix3 (0 : Fin 1) r o)) := by
  obtain ⟨-, -, -, -, -, -, -, -, -, b0, b1, z2⟩ := idx_facts t
  obtain ⟨e, he⟩ : ∃ e : Fin 64, e.val = win0_3.index t (0 : Fin 3) := ⟨⟨win0_3.index t (0 : Fin 3), by omega⟩, rfl⟩
  obtain ⟨c', hc⟩ : ∃ c' : Fin 3072, c'.val = win0_3.index t (1 : Fin 3) * 1024 + r.val :=
    ⟨⟨win0_3.index t (1 : Fin 3) * 1024 + r.val, by have := r.isLt; omega⟩, rfl⟩
  refine (pay_apply (iblk m c 0 t) (iblk m c 1 t) (iblk m c 2 t) r o).trans ?_
  refine Eq.trans ?_ (grouped_at (V m c main_v45) (m ((c : Thread nD τ).loc main_arg1)) (m ((c : Thread nD τ).loc main_arg2))
    (((cfg0.win 3).blk t).view.emb (ix3 (0 : Fin 1) r o)) e c' o ?_ ?_ ?_).symm
  · unfold Cert.Grouped.entry
    refine congrArg₂ (· + ·) (Finset.sum_congr rfl fun k _ => congrArg₂ (· * ·) ?_ ?_) ?_
    · exact bucket_block m c t r k e c' he hc
    · exact weight_block m c t o k e he
    · exact bias_block m c t o e he
  · show win0_3.index t (0 : Fin 3) * 1 + 1 * 0 = e.val; omega
  · show win0_3.index t (1 : Fin 3) * 1024 + 1 * r.val = c'.val; omega
  · show win0_3.index t (2 : Fin 3) * 512 + 1 * o.val = o.val; omega

/-- The output window is never cut at the array's end: a write-back moves the whole staging block. -/
theorem cut_out_block (X : Vec Ideal S1x1024x512 .f32) (t : Fin cfg0.N) :
    ((cfg0.win 3).cut (grid0.coords t) X : Vec Ideal S1x1024x512 .f32) = X := rfl

/-- The output window's block at a point, read off any [64, 3072, 512] array, entry by entry. -/
theorem read_out_block (G : Vec Ideal S64x3072x512 .f32) (t : Fin cfg0.N) (j : S1x1024x512.Idx) :
    (((cfg0.win 3).blk t).view.read (Elt Ideal) G : Vec Ideal S1x1024x512 .f32) j
      = G (((cfg0.win 3).blk t).view.emb j) := rfl

/-- WHAT THE POINT t WRITES BACK is its block of the grouped map of the buckets as the region finds
    them, the launched weights and the launched bias. -/
theorem flushed_eq (c : Dev nD) (t : Fin cfg0.N) :
    (dats m 0 c).flushed 3 t = ((cfg0.win 3).blk t).view.read (Elt Ideal)
      (Cert.Grouped.grouped (V m c main_v45) (m ((c : Thread nD τ).loc main_arg1)) (m ((c : Thread nD τ).loc main_arg2))) := by
  show (cfg0.win 3).cut (grid0.coords t) ((dats m 0 c).after 3 t) = _
  rw [after0_3]
  unfold Gen.out0_3
  rw [View.canon_unit_zero hz]
  simp only [View.ld_unit_zero (S := S1x1024x512) hz, View.ld_unit_zero (S := S1x512x512) hz,
    View.ld_unit_zero (S := S1x1x512) hz]
  refine (cut_out_block (k0_pay1 (F := Ideal) (iblk m c 0 t) (iblk m c 1 t) (iblk m c 2 t)) t).trans ?_
  refine funext fun (j : S1x1024x512.Idx) => ?_
  refine Eq.trans ?_ (read_out_block
    (Cert.Grouped.grouped (V m c main_v45) (m ((c : Thread nD τ).loc main_arg1)) (m ((c : Thread nD τ).loc main_arg2))) t j).symm
  obtain ⟨u, r, o, rfl⟩ : ∃ (u : Fin 1) (r : Fin 1024) (o : Fin 512), j = ix3 u r o := ⟨j 0, j 1, j 2, eq_ix3 j⟩
  obtain rfl : u = 0 := Subsingleton.elim u 0
  exact stored_entry m c t r o

/-! ## The blocks cover the array -/

/-- An index of the output array is in the point t's block iff each coordinate is in the block's range on its axis. -/
theorem mem_blk (t : Fin cfg0.N) (i : S64x3072x512.Idx) :
    i ∈ ((cfg0.win 3).blk t).view.set ↔ ∀ a : Fin 3, win0_3.index t a * S1x1024x512.size a ≤ (i a).val
      ∧ (i a).val < win0_3.index t a * S1x1024x512.size a + S1x1024x512.size a := by
  show i ∈ ((View.whole main_v47).slice (win0_3.rect t)).set ↔ _
  rw [View.set_slice_whole, Rect.mem_set_unit]
  exact Iff.rfl

/-- Every output entry (e, c', o) is written back by the point (e, c' / 1024). -/
theorem cover (i : S64x3072x512.Idx) :
    ∃ t : Fin cfg0.N, (cfg0.win 3).flush t = true ∧ i ∈ ((cfg0.win 3).blk t).view.set := by
  have hi0 : (i 0).val < 64 := (i 0).isLt
  have hi1 : (i 1).val < 3072 := (i 1).isLt
  have hi2 : (i 2).val < 512 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

/-! ## The output array after the region -/

/-- THE OUTPUT ARRAY after all 192 points is the grouped linear map of the buckets as the region finds
    them, the weights and the bias as launched. -/
theorem out_eq (c : Dev nD) :
    (dats m 0 c).arrAt 3 cfg0.N
      = Cert.Grouped.grouped (V m c main_v45) (m ((c : Thread nD τ).loc main_arg1)) (m ((c : Thread nD τ).loc main_arg2)) :=
  (dats m 0 c).arrAt_eq_of_cover 3
    (Cert.Grouped.grouped (V m c main_v45) (m ((c : Thread nD τ).loc main_arg1)) (m ((c : Thread nD τ).loc main_arg2)))
    (fun t _ => flushed_eq m c t) cover

end Cert.KernelIdeal.Blocks

end
-- ==== Proof.KernelRun.lean ====
/-
  The idealized kernel program's run with its result NAMED. Its one region leaves the output array at the grouped
  linear map of the buckets the region finds, the weights and the bias (the blocks-to-array module); the lines after
  the region are the combine of that array with the slots and the sort order the lines before the region computed.
  So every weakly fair execution ends with the result buffer at

      combine (grouped buckets weights bias) slots order,

  the buckets, the slots and the order being the program's own host prefix read where the region starts, and with the
  four argument arrays as launched.
-/
import proofs.«178380_j84868553769176_1_alg».proof.Proof.Gen.KernelIdeal.Frame
import proofs.«178380_j84868553769176_1_alg».proof.Proof.Combine
import proofs.«178380_j84868553769176_1_alg».proof.Proof.KernelBlocks
import proofs.«178380_j84868553769176_1_alg».proof.Proof.Spec

noncomputable section

namespace Cert.KernelIdeal.Run

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the result buffer holds when the program ends. -/
def result (c : Dev nD) : (⟨S131072x512, .f32⟩ : BufTy).Contents (Elt Ideal) :=
  Combine.combine
    (Cert.Grouped.grouped (V m c main_v45) (m ((c : Thread nD τ).loc main_arg1)) (m ((c : Thread nD τ).loc main_arg2)))
    (V m c main_v28) (V m c main_v0)

/-- The lines after the region, run from the region's exit (its arrays at what the grid wrote, everything else as the
    region found it), leave the result buffer at `result`: they read the output array, the slots and the order. -/
theorem tail_value (c : Dev nD) :
    Pipeline.afterTail₀ cfgs (dats m) 0 (V0 m) [hostOps1] c main_v65 = result m c := by
  unfold Pipeline.afterTail₀
  show StableHlo.after hostOps1 _ (Proc.devRef .tc main_v65) = _
  rw [Combine.tail_eq]
  have hout : Pipeline.withArrays (cfgs 0).spec c (V0 m c) (fun w => (dats m 0 c).arrAt w (cfgs 0).N) (Proc.devRef .tc main_v47)
      = (dats m 0 c).arrAt 3 cfg0.N := Pipeline.withArrays_arr spec0 launch0.win.arr_inj c _ _ 3
  have hslot : Pipeline.withArrays (cfgs 0).spec c (V0 m c) (fun w => (dats m 0 c).arrAt w (cfgs 0).N) (Proc.devRef .tc main_v28)
      = V m c main_v28 := Pipeline.withArrays_of_ne _ c _ _ main_v28 (by decide)
  have horder : Pipeline.withArrays (cfgs 0).spec c (V0 m c) (fun w => (dats m 0 c).arrAt w (cfgs 0).N) (Proc.devRef .tc main_v0)
      = V m c main_v0 := Pipeline.withArrays_of_ne _ c _ _ main_v0 (by decide)
  rw [hout, hslot, horder, Blocks.out_eq]
  rfl

/-- The run: the result buffer at `result`, the arguments as launched. -/
theorem run :
    θ_run defs (onTc (τ := τ) (main (F := Ideal))) ⟨m, fun _ => 0, ρ⟩ (fun r => ∀ c : Dev nD,
      r.2.mem ((c.tc : Thread nD τ).loc main_v65) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v65 (Pipeline.mem_restRefs_of main_v65 (by decide) (by decide))).trans (tail_value m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Run

end
-- ==== Proof.lean ====
/-
  The certificate of a grouped (per-expert) linear layer: a Pallas kernel that multiplies each expert's capacity
  bucket of token rows by the transpose of that expert's weight matrix and adds the expert's bias, inside jax glue
  that routes the tokens (a stable argsort of the expert ids, the per-expert counts and starts, each token's rank
  and bucket slot, the dispatch into the buckets) and combines the results back to token order — against a jnp
  reference that does the same routing and combine around one batched einsum plus the bias.

  Over the extended reals the two programs are one function. The routing, the dispatch and the combine are the same
  host operations on both sides and are never opened: they are carried as the functions `Routing.dispatch` and
  `Combine.combine`, and the order, the slots and the buckets of the two programs are equal because they are the
  same operations applied to the same token rows and expert ids. What differs is the middle: the kernel writes the
  [64, 3072, 512] result block by block over a 64 × 3 grid, each block a matrix product (operands rounded to bf16,
  which is the identity on the extended reals) into a zero accumulator plus the bias row; the reference is one
  dot_general contracting the feature axis with the expert axis batched, plus the bias broadcast. Entry (e, c, o) of
  both is  ∑ₖ buf (e, c, k) · w (e, o, k) + b (e, o)  (`Grouped.grouped`): sums over the same 512 products, so no
  law beyond reading both contractions at an entry is needed and the finiteness precondition is never opened.

  The three frames: the two kernel programs' by their frame certificates; the reference's by its run (a straight
  line of host operations, none of which writes an argument). `preserves` has no entry: the ideal pass rewrote
  nothing.
-/
import proofs.«178380_j84868553769176_1_alg».proof.Defs
import proofs.«178380_j84868553769176_1_alg».proof.Proof.Gen.Kernel
import proofs.«178380_j84868553769176_1_alg».proof.Proof.Gen.Kernel.Skeleton
import proofs.«178380_j84868553769176_1_alg».proof.Proof.Gen.Kernel.Launch
import proofs.«178380_j84868553769176_1_alg».proof.Proof.Gen.Kernel.Points
import proofs.«178380_j84868553769176_1_alg».proof.Proof.Gen.Kernel.Frame
import proofs.«178380_j84868553769176_1_alg».proof.Proof.Gen.KernelIdeal
import proofs.«178380_j84868553769176_1_alg».proof.Proof.Gen.KernelIdeal.Skeleton
import proofs.«178380_j84868553769176_1_alg».proof.Proof.Gen.KernelIdeal.Launch
import proofs.«178380_j84868553769176_1_alg».proof.Proof.Gen.KernelIdeal.Points
import proofs.«178380_j84868553769176_1_alg».proof.Proof.Gen.KernelIdeal.Frame
import proofs.«178380_j84868553769176_1_alg».proof.Proof.Gen.ReferenceIdeal
import proofs.«178380_j84868553769176_1_alg».proof.Proof.Gen.Pre_finite_inputs
import proofs.«178380_j84868553769176_1_alg».proof.Proof.RefRun
import proofs.«178380_j84868553769176_1_alg».proof.Proof.RefLinear
import proofs.«178380_j84868553769176_1_alg».proof.Proof.Combine
import proofs.«178380_j84868553769176_1_alg».proof.Proof.Routing
import proofs.«178380_j84868553769176_1_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.StableHlo

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference terminates with each buffer at the fold of its operations over the launch contents, and no
    operation writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Run.kept_arg0 _),
      (h c Cert.ReferenceIdeal.main_arg1).trans (Cert.ReferenceIdeal.Run.kept_arg1 _),
      (h c Cert.ReferenceIdeal.main_arg2).trans (Cert.ReferenceIdeal.Run.kept_arg2 _),
      (h c Cert.ReferenceIdeal.main_arg3).trans (Cert.ReferenceIdeal.Run.kept_arg3 _)⟩)
    (Cert.ReferenceIdeal.Run.run (F := Ideal) m ρ)

/-! ## The two results are one function of the arguments -/

/-- From a memory that agrees with the kernel program's on the four arguments, the reference's operations leave its
    result buffer at the kernel program's result: the same order, slots and buckets (the same routing and dispatch of
    the same rows and ids), the same linear map of them (both are `Grouped.grouped`), the same combine. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    after (Cert.ReferenceIdeal.Ops.ops (F := Ideal)) (launchContents m' c) (Cert.ReferenceIdeal.main_v67 : DevRef _ _)
      = Cert.KernelIdeal.Run.result m c := by
  have hbuckets := Cert.Routing.buckets_eq (F := Ideal) (fun b => m (c, b)) (launchContents m' c) h0 h3
  have hslot := Cert.Routing.slot_eq (F := Ideal) (fun b => m (c, b)) (launchContents m' c) h3
  have horder := Cert.Routing.order_eq (F := Ideal) (fun b => m (c, b)) (launchContents m' c) h3
  have hw : launchContents m' c (Cert.ReferenceIdeal.main_arg1 : DevRef _ _) = m ((c.tc : Thread Cert.KernelIdeal.nD Cert.KernelIdeal.τ).loc Cert.KernelIdeal.main_arg1) := h1
  have hb : launchContents m' c (Cert.ReferenceIdeal.main_arg2 : DevRef _ _) = m ((c.tc : Thread Cert.KernelIdeal.nD Cert.KernelIdeal.τ).loc Cert.KernelIdeal.main_arg2) := h2
  show after (Cert.ReferenceIdeal.Ops.preOps ++ Cert.ReferenceIdeal.Ops.postOps) _ _ = _
  rw [after_append, Cert.ReferenceIdeal.Combine.post_eq, hbuckets, hslot, horder,
    Cert.ReferenceIdeal.Run.pre_kept_arg1, Cert.ReferenceIdeal.Run.pre_kept_arg2, hw, hb,
    Cert.ReferenceIdeal.Linear.linear_eq]
  rfl

/-- Both idealized programs run, to equal results and unchanged arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c =>
    ⟨(h c Cert.ReferenceIdeal.main_v67).trans
        (reference_value m m' c (hagree c).1 (hagree c).2.1 (hagree c).2.2.1 (hagree c).2.2.2),
      (h c Cert.ReferenceIdeal.main_arg0).trans (Cert.ReferenceIdeal.Run.kept_arg0 _),
      (h c Cert.ReferenceIdeal.main_arg1).trans (Cert.ReferenceIdeal.Run.kept_arg1 _),
      (h c Cert.ReferenceIdeal.main_arg2).trans (Cert.ReferenceIdeal.Run.kept_arg2 _),
      (h c Cert.ReferenceIdeal.main_arg3).trans (Cert.ReferenceIdeal.Run.kept_arg3 _)⟩)
    (Cert.ReferenceIdeal.Run.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
